-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304 : Shape := ⟨1, ![4194304]⟩
abbrev S_ : Shape := ⟨0, ![]⟩

class Facts : Prop where
  bcast_S_S4194304 : S_.BroadcastsInDim S4194304 (![] : Fin 0 → Fin S4194304.rank)
  reducesTo_S4194304_S_d0 : S4194304.ReducesTo [0] S_
  h_S_ : 0 < S_.numel

variable [Facts]

def fn {F : FTy → Type} [FloatOps F] (main_arg0 : FVec F S4194304 .f32) : IVec S_ 1 :=
  let main_v0 : FVec F S4194304 .f32 := Host.absf main_arg0
  let main_cst : FVec F S_ .f32 := constant S_ .f32 0x7F800000#32
  let main_v1 : FVec F S4194304 .f32 := broadcastInDim S4194304 ![] bcast_S_S4194304 main_cst
  let main_v2 : IVec S4194304 1 := cmpf .olt main_v0 main_v1
  let main_c : IVec S_ 1 := constantI S_ 1 1#1
  let main_v3 : IVec S_ 1 := (fun x v => Host.reduce IntOp.andi x v reducesTo_S4194304_S_d0 h_S_) main_v2 main_c
  main_v3
-- ==== Kernel.lean ====
abbrev S4194304 : Shape := ⟨1, ![4194304]⟩
abbrev S_ : Shape := ⟨0, ![]⟩
abbrev S4194432 : Shape := ⟨1, ![4194432]⟩
abbrev S4194304x32 : Shape := ⟨2, ![4194304, 32]⟩
abbrev S16384 : Shape := ⟨1, ![16384]⟩
abbrev S128 : Shape := ⟨1, ![128]⟩
abbrev S16384x32 : Shape := ⟨2, ![16384, 32]⟩
abbrev S16512 : Shape := ⟨1, ![16512]⟩
abbrev S16384x1 : Shape := ⟨2, ![16384, 1]⟩
abbrev S4194180x32 : Shape := ⟨2, ![4194180, 32]⟩

abbrev nBuf : Space → Nat
  | .hbm => 6
  | .vmem => 6
  | .smem => 0
  | _ => 0

abbrev bufTy : (tb : Table) → Fin (tcTables nBuf tb) → BufTy
  | .hbm, ⟨0, _⟩ => ⟨S4194304, .f32⟩
  | .hbm, ⟨1, _⟩ => ⟨S_, .i32⟩
  | .hbm, ⟨2, _⟩ => ⟨S_, .f32⟩
  | .hbm, ⟨3, _⟩ => ⟨S4194432, .f32⟩
  | .hbm, ⟨4, _⟩ => ⟨S4194304x32, .f32⟩
  | .hbm, ⟨5, _⟩ => ⟨S4194180x32, .f32⟩
  | .local _ .vmem, ⟨0, _⟩ => ⟨S16384, .f32⟩
  | .local _ .vmem, ⟨1, _⟩ => ⟨S16384, .f32⟩
  | .local _ .vmem, ⟨2, _⟩ => ⟨S128, .f32⟩
  | .local _ .vmem, ⟨3, _⟩ => ⟨S128, .f32⟩
  | .local _ .vmem, ⟨4, _⟩ => ⟨S16384x32, .f32⟩
  | .local _ .vmem, ⟨5, _⟩ => ⟨S16384x32, .f32⟩
  | _, _ => ⟨S4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c0_i32 : BitVec 32 := 0#32
  ![v1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S4194304_S4194432_01280 : S4194304.Pads (![0] : Fin 1 → Nat) ![128] ![0] S4194432
  h_S_ : 0 < S_.numel
  inb_S16384_S16384_0 : ∀ a, (![0] : Fin 1 → Nat) a + S16384.size a ≤ S16384.size a
  h_S16384 : 0 < S16384.numel
  shapeCasts_S16384_S16384 : S16384.ShapeCasts S16384
  inb_S128_S128_0 : ∀ a, (![0] : Fin 1 → Nat) a + S128.size a ≤ S128.size a
  h_S128 : 0 < S128.numel
  shapeCasts_S128_S128 : S128.ShapeCasts S128
  concatenates_S16384_S128_S16512_d0 : Shape.Concatenates [S16384, S128] S16512 0
  slices_S16512_o0_S16384 : S16512.Slices ![0] S16384
  inb_S16384x32_S16384x1_0_0 : ∀ a, (![0, 0] : Fin 2 → Nat) a + S16384x1.size a ≤ S16384x32.size a
  h_S16384x1 : 0 < S16384x1.numel
  shapeCasts_S16384x1_S16384 : S16384x1.ShapeCasts S16384
  shapeCasts_S16384_S16384x1 : S16384.ShapeCasts S16384x1
  slices_S16512_o4_S16384 : S16512.Slices ![4] S16384
  inb_S16384x32_S16384x1_0_1 : ∀ a, (![0, 1] : Fin 2 → Nat) a + S16384x1.size a ≤ S16384x32.size a
  slices_S16512_o8_S16384 : S16512.Slices ![8] S16384
  inb_S16384x32_S16384x1_0_2 : ∀ a, (![0, 2] : Fin 2 → Nat) a + S16384x1.size a ≤ S16384x32.size a
  slices_S16512_o12_S16384 : S16512.Slices ![12] S16384
  inb_S16384x32_S16384x1_0_3 : ∀ a, (![0, 3] : Fin 2 → Nat) a + S16384x1.size a ≤ S16384x32.size a
  slices_S16512_o16_S16384 : S16512.Slices ![16] S16384
  inb_S16384x32_S16384x1_0_4 : ∀ a, (![0, 4] : Fin 2 → Nat) a + S16384x1.size a ≤ S16384x32.size a
  slices_S16512_o20_S16384 : S16512.Slices ![20] S16384
  inb_S16384x32_S16384x1_0_5 : ∀ a, (![0, 5] : Fin 2 → Nat) a + S16384x1.size a ≤ S16384x32.size a
  slices_S16512_o24_S16384 : S16512.Slices ![24] S16384
  inb_S16384x32_S16384x1_0_6 : ∀ a, (![0, 6] : Fin 2 → Nat) a + S16384x1.size a ≤ S16384x32.size a
  slices_S16512_o28_S16384 : S16512.Slices ![28] S16384
  inb_S16384x32_S16384x1_0_7 : ∀ a, (![0, 7] : Fin 2 → Nat) a + S16384x1.size a ≤ S16384x32.size a
  slices_S16512_o32_S16384 : S16512.Slices ![32] S16384
  inb_S16384x32_S16384x1_0_8 : ∀ a, (![0, 8] : Fin 2 → Nat) a + S16384x1.size a ≤ S16384x32.size a
  slices_S16512_o36_S16384 : S16512.Slices ![36] S16384
  inb_S16384x32_S16384x1_0_9 : ∀ a, (![0, 9] : Fin 2 → Nat) a + S16384x1.size a ≤ S16384x32.size a
  slices_S16512_o40_S16384 : S16512.Slices ![40] S16384
  inb_S16384x32_S16384x1_0_10 : ∀ a, (![0, 10] : Fin 2 → Nat) a + S16384x1.size a ≤ S16384x32.size a
  slices_S16512_o44_S16384 : S16512.Slices ![44] S16384
  inb_S16384x32_S16384x1_0_11 : ∀ a, (![0, 11] : Fin 2 → Nat) a + S16384x1.size a ≤ S16384x32.size a
  slices_S16512_o48_S16384 : S16512.Slices ![48] S16384
  inb_S16384x32_S16384x1_0_12 : ∀ a, (![0, 12] : Fin 2 → Nat) a + S16384x1.size a ≤ S16384x32.size a
  slices_S16512_o52_S16384 : S16512.Slices ![52] S16384
  inb_S16384x32_S16384x1_0_13 : ∀ a, (![0, 13] : Fin 2 → Nat) a + S16384x1.size a ≤ S16384x32.size a
  slices_S16512_o56_S16384 : S16512.Slices ![56] S16384
  inb_S16384x32_S16384x1_0_14 : ∀ a, (![0, 14] : Fin 2 → Nat) a + S16384x1.size a ≤ S16384x32.size a
  slices_S16512_o60_S16384 : S16512.Slices ![60] S16384
  inb_S16384x32_S16384x1_0_15 : ∀ a, (![0, 15] : Fin 2 → Nat) a + S16384x1.size a ≤ S16384x32.size a
  slices_S16512_o64_S16384 : S16512.Slices ![64] S16384
  inb_S16384x32_S16384x1_0_16 : ∀ a, (![0, 16] : Fin 2 → Nat) a + S16384x1.size a ≤ S16384x32.size a
  slices_S16512_o68_S16384 : S16512.Slices ![68] S16384
  inb_S16384x32_S16384x1_0_17 : ∀ a, (![0, 17] : Fin 2 → Nat) a + S16384x1.size a ≤ S16384x32.size a
  slices_S16512_o72_S16384 : S16512.Slices ![72] S16384
  inb_S16384x32_S16384x1_0_18 : ∀ a, (![0, 18] : Fin 2 → Nat) a + S16384x1.size a ≤ S16384x32.size a
  slices_S16512_o76_S16384 : S16512.Slices ![76] S16384
  inb_S16384x32_S16384x1_0_19 : ∀ a, (![0, 19] : Fin 2 → Nat) a + S16384x1.size a ≤ S16384x32.size a
  slices_S16512_o80_S16384 : S16512.Slices ![80] S16384
  inb_S16384x32_S16384x1_0_20 : ∀ a, (![0, 20] : Fin 2 → Nat) a + S16384x1.size a ≤ S16384x32.size a
  slices_S16512_o84_S16384 : S16512.Slices ![84] S16384
  inb_S16384x32_S16384x1_0_21 : ∀ a, (![0, 21] : Fin 2 → Nat) a + S16384x1.size a ≤ S16384x32.size a
  slices_S16512_o88_S16384 : S16512.Slices ![88] S16384
  inb_S16384x32_S16384x1_0_22 : ∀ a, (![0, 22] : Fin 2 → Nat) a + S16384x1.size a ≤ S16384x32.size a
  slices_S16512_o92_S16384 : S16512.Slices ![92] S16384
  inb_S16384x32_S16384x1_0_23 : ∀ a, (![0, 23] : Fin 2 → Nat) a + S16384x1.size a ≤ S16384x32.size a
  slices_S16512_o96_S16384 : S16512.Slices ![96] S16384
  inb_S16384x32_S16384x1_0_24 : ∀ a, (![0, 24] : Fin 2 → Nat) a + S16384x1.size a ≤ S16384x32.size a
  slices_S16512_o100_S16384 : S16512.Slices ![100] S16384
  inb_S16384x32_S16384x1_0_25 : ∀ a, (![0, 25] : Fin 2 → Nat) a + S16384x1.size a ≤ S16384x32.size a
  slices_S16512_o104_S16384 : S16512.Slices ![104] S16384
  inb_S16384x32_S16384x1_0_26 : ∀ a, (![0, 26] : Fin 2 → Nat) a + S16384x1.size a ≤ S16384x32.size a
  slices_S16512_o108_S16384 : S16512.Slices ![108] S16384
  inb_S16384x32_S16384x1_0_27 : ∀ a, (![0, 27] : Fin 2 → Nat) a + S16384x1.size a ≤ S16384x32.size a
  slices_S16512_o112_S16384 : S16512.Slices ![112] S16384
  inb_S16384x32_S16384x1_0_28 : ∀ a, (![0, 28] : Fin 2 → Nat) a + S16384x1.size a ≤ S16384x32.size a
  slices_S16512_o116_S16384 : S16512.Slices ![116] S16384
  inb_S16384x32_S16384x1_0_29 : ∀ a, (![0, 29] : Fin 2 → Nat) a + S16384x1.size a ≤ S16384x32.size a
  slices_S16512_o120_S16384 : S16512.Slices ![120] S16384
  inb_S16384x32_S16384x1_0_30 : ∀ a, (![0, 30] : Fin 2 → Nat) a + S16384x1.size a ≤ S16384x32.size a
  slices_S16512_o124_S16384 : S16512.Slices ![124] S16384
  inb_S16384x32_S16384x1_0_31 : ∀ a, (![0, 31] : Fin 2 → Nat) a + S16384x1.size a ≤ S16384x32.size a
  slices_S4194304x32_S4194180x32_0_0 : S4194304x32.Slices ![0, 0] S4194180x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16384.size a < S4194432.size a
  hwx0_0 : ∀ i : grid0.Coords, EltTy.bits .f32 = 32 ∨ (Rect.unit (s := S4194432) (fun a => cc0_transform_0 i a * S16384.size a) (fun a => (Pipeline.Clip.of (cc0_transform_0 i a) (S16384.size a) (S4194432.size a)).extent (S16384.size a)) fun a => Pipeline.Clip.inb (Pipeline.Clip.ok_of (hstart0_0 i a))).WholeWords (EltTy.packing .f32)
  hwxs0_0 : ∀ i : grid0.Coords, EltTy.bits .f32 = 32 ∨ (Rect.unit (s := S16384) (fun _ => 0) (fun a => (Pipeline.Clip.of (cc0_transform_0 i a) (S16384.size a) (S4194432.size a)).extent (S16384.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S4194432.size a
  hwx0_1 : ∀ i : grid0.Coords, EltTy.bits .f32 = 32 ∨ (Rect.block (s := S4194432) S128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x32.size a ≤ S4194304x32.size a
  hwx0_2 : ∀ i : grid0.Coords, EltTy.bits .f32 = 32 ∨ (Rect.block (s := S4194304x32) S16384x32.size (cc0_transform_2 i) (hinb0_2 i)).WholeWords (EltTy.packing .f32)

variable [Facts₀]

abbrev win0_0 : Pipeline.Window sig grid0 :=
  Pipeline.Window.ofSpecClip (Memref.whole main_v0) S16384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16384x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4194304 : Shape := ⟨1, ![4194304]⟩
abbrev S4194180 : Shape := ⟨1, ![4194180]⟩
abbrev S4194180x1 : Shape := ⟨2, ![4194180, 1]⟩
abbrev S_ : Shape := ⟨0, ![]⟩
abbrev S32 : Shape := ⟨1, ![32]⟩
abbrev S1x32 : Shape := ⟨2, ![1, 32]⟩
abbrev S4194180x32 : Shape := ⟨2, ![4194180, 32]⟩
abbrev S4194180x32x1 : Shape := ⟨3, ![4194180, 32, 1]⟩

abbrev nBuf : Space → Nat
  | .hbm => 23
  | .vmem => 0
  | .smem => 0
  | _ => 0

abbrev bufTy : (tb : Table) → Fin (tcTables nBuf tb) → BufTy
  | .hbm, ⟨0, _⟩ => ⟨S4194304, .f32⟩
  | .hbm, ⟨1, _⟩ => ⟨S4194180, .i32⟩
  | .hbm, ⟨2, _⟩ => ⟨S4194180x1, .i32⟩
  | .hbm, ⟨3, _⟩ => ⟨S_, .i32⟩
  | .hbm, ⟨4, _⟩ => ⟨S4194180x1, .i32⟩
  | .hbm, ⟨5, _⟩ => ⟨S4194180x1, .i32⟩
  | .hbm, ⟨6, _⟩ => ⟨S32, .i32⟩
  | .hbm, ⟨7, _⟩ => ⟨S1x32, .i32⟩
  | .hbm, ⟨8, _⟩ => ⟨S_, .i32⟩
  | .hbm, ⟨9, _⟩ => ⟨S1x32, .i32⟩
  | .hbm, ⟨10, _⟩ => ⟨S1x32, .i32⟩
  | .hbm, ⟨11, _⟩ => ⟨S4194180x32, .i32⟩
  | .hbm, ⟨12, _⟩ => ⟨S4194180x32, .i32⟩
  | .hbm, ⟨13, _⟩ => ⟨S4194180x32, .i32⟩
  | .hbm, ⟨14, _⟩ => ⟨S_, .i32⟩
  | .hbm, ⟨15, _⟩ => ⟨S4194180x32, .i32⟩
  | .hbm, ⟨16, _⟩ => ⟨S4194180x32, .i1⟩
  | .hbm, ⟨17, _⟩ => ⟨S_, .i32⟩
  | .hbm, ⟨18, _⟩ => ⟨S4194180x32, .i32⟩
  | .hbm, ⟨19, _⟩ => ⟨S4194180x32, .i32⟩
  | .hbm, ⟨20, _⟩ => ⟨S4194180x32, .i32⟩
  | .hbm, ⟨21, _⟩ => ⟨S4194180x32x1, .i32⟩
  | .hbm, ⟨22, _⟩ => ⟨S4194180x32, .f32⟩
  | _, _ => ⟨S4194304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]

class Facts₀ : Prop where
  bcast_S4194180_S4194180x1_0 : S4194180.BroadcastsInDim S4194180x1 (![0] : Fin 1 → Fin S4194180x1.rank)
  bcast_S_S4194180x1 : S_.BroadcastsInDim S4194180x1 (![] : Fin 0 → Fin S4194180x1.rank)
  bcast_S32_S1x32_1 : S32.BroadcastsInDim S1x32 (![1] : Fin 1 → Fin S1x32.rank)
  bcast_S_S1x32 : S_.BroadcastsInDim S1x32 (![] : Fin 0 → Fin S1x32.rank)
  bcast_S4194180x1_S4194180x32_0_1 : S4194180x1.BroadcastsInDim S4194180x32 (![0, 1] : Fin 2 → Fin S4194180x32.rank)
  bcast_S1x32_S4194180x32_0_1 : S1x32.BroadcastsInDim S4194180x32 (![0, 1] : Fin 2 → Fin S4194180x32.rank)
  bcast_S_S4194180x32 : S_.BroadcastsInDim S4194180x32 (![] : Fin 0 → Fin S4194180x32.rank)
  bcast_S4194180x32_S4194180x32x1_0_1 : S4194180x32.BroadcastsInDim S4194180x32x1 (![0, 1] : Fin 2 → Fin S4194180x32x1.rank)
  gather_S4194304_S4194180x32x1_S4194180x32_n_0_n_n_0_2_1_wf : GatherDims.WF S4194304 S4194180x32x1 S4194180x32 [] [0] [] [0] [] 2 ![1]

variable [Facts₀]

def gather_S4194304_S4194180x32x1_S4194180x32_n_0_n_n_0_2_1 : GatherDims S4194304 S4194180x32x1 S4194180x32 where
  offsetDims := []
  collapsedSliceDims := [0]
  operandBatchingDims := []
  startIndicesBatchingDims := []
  startIndexMap := [0]
  indexVectorDim := 2
  sliceSizes := ![1]
  wf := gather_S4194304_S4194180x32x1_S4194180x32_n_0_n_n_0_2_1_wf

class Facts : Prop extends Facts₀ where

variable [Facts]
-- ==== Proof.Spec.lean ====
/-
  The time-delay embedding of a series, as one function of the series.

  A series x of 4194304 samples is laid out as a table of 4194180 rows and 32 columns whose entry in
  row j and column k is the sample x[j + 4 * k]: column k is the series delayed by 4 * k samples, and the
  rows stop at 4194180 = 4194304 - 4 * 31 so that the last column still reads inside the series.
  Every entry is a copy of one sample; nothing is computed.
-/
import Idealize.ShloMosaic.Lib.ValueIdx

noncomputable section

namespace Cert.Embed

open Idealize.ShloMosaic Idealize.ShloMosaic.ValueIdx

/-- The sample a table entry copies lies inside the series: j < 4194180 and k < 32 give
    j + 4 * k ≤ 4194179 + 124 = 4194303. -/
theorem delayed_lt (y : (⟨2, ![4194180, 32]⟩ : Shape).Idx) : (y 0).val + 4 * (y 1).val < 4194304 := by
  have h0 := idx2_lt0 y
  have h1 := idx2_lt1 y
  omega

/-- The delay embedding: entry (j, k) of the table is sample j + 4 * k of the series. -/
def delayEmbed {α : Type} (x : (⟨1, ![4194304]⟩ : Shape).Idx → α) : (⟨2, ![4194180, 32]⟩ : Shape).Idx → α :=
  fun y => x (ix1 ⟨(y 0).val + 4 * (y 1).val, delayed_lt y⟩)

/-- The embedding read at coordinates. -/
theorem delayEmbed_ix2 {α : Type} (x : (⟨1, ![4194304]⟩ : Shape).Idx → α) (j : Fin 4194180) (k : Fin 32) :
    delayEmbed x (ix2 j k) = x (ix1 ⟨j.val + 4 * k.val, delayed_lt (ix2 j k)⟩) := rfl

end Cert.Embed

end
-- ==== Proof.RefSide.lean ====
/-
  The reference side. The reference builds the index table idx[j, k] = j * 1 + k * 4 in 32-bit words
  (4194180 rows, 32 columns), moves a negative index up by the series' length (none is negative), and
  gathers the series at the table: entry (j, k) of its result is sample j + 4 * k of the series, the
  delay embedding of Spec.lean.
-/
import proofs.«177202_j87351044866353_1_alg».proof.Defs
import proofs.«177202_j87351044866353_1_alg».proof.Proof.Gen.ReferenceIdeal.Run
import proofs.«177202_j87351044866353_1_alg».proof.Proof.Gen.ReferenceIdeal.Read
import proofs.«177202_j87351044866353_1_alg».proof.Proof.Spec
import Idealize.ShloMosaic.Lib.ValueIdx
import Idealize.ShloMosaic.Lib.StableHlo.Predicate

noncomputable section

namespace Cert.RefSide

open Idealize.ShloMosaic Idealize.ShloMosaic.ValueIdx
open Cert.ReferenceIdeal Cert.ReferenceIdeal.Gen
open Idealize.ShloMosaic.StableHlo.Predicate

/-- The index word of row j and column k: j * 1 + k * 4 in 32-bit arithmetic. -/
abbrev idxWord (j k : Nat) : BitVec 32 :=
  IntOp.addi (IntOp.muli (BitVec.ofNat 32 j) 1#32) (IntOp.muli (BitVec.ofNat 32 k) 4#32)

/-- Inside the table the word does not wrap: j + 4 * k ≤ 4194179 + 124 is far below 2 ^ 32. -/
theorem idxWord_toNat (j k : Nat) (hj : j < 4194180) (hk : k < 32) : (idxWord j k).toNat = j + 4 * k := by
  unfold idxWord IntOp.addi IntOp.muli
  simp only [BitVec.toNat_add, BitVec.toNat_mul, BitVec.toNat_ofNat, Nat.reducePow, Nat.reduceMod]
  omega

/-- The start-index table read at [j, k, 0]: the select between the index moved up by the series'
    length and the index itself, on the sign of the index. -/
theorem table_apply (y : S4194180x32.Idx) :
    Read.val_main_v16 (F := Ideal) (takeIdx y)
      = Scalar.select (IntOp.cmpi .slt (idxWord (y 0).val (y 1).val) 0#32)
          (IntOp.addi (idxWord (y 0).val (y 1).val) 4194304#32) (idxWord (y 0).val (y 1).val) := by
  simp only [Read.val_main_v16_apply, Read.val_main_v15_apply, Read.val_main_v12_apply, Read.val_main_v14_apply,
    Read.val_main_v10_apply, Read.val_main_v11_apply, Read.val_main_v13_apply, Read.val_main_v8_apply,
    Read.val_main_v9_apply, Read.val_main_v3_apply, Read.val_main_v7_apply, Read.val_main_v1_apply,
    Read.val_main_v2_apply, Read.val_main_v5_apply, Read.val_main_v6_apply, Read.val_main_v0_apply,
    Read.val_main_v4_apply, Read.val_main_c_apply, Read.val_main_c_0_apply, Read.val_main_c_1_apply,
    Read.val_main_c_2_apply]

/-- The reference's last stage, the gather of the series at the index table, is the delay embedding of
    the series. -/
theorem ref_is_embed (x : (⟨S4194304, .f32⟩ : BufTy).Contents (Elt Ideal)) :
    Cert.ReferenceIdeal.Read.val_main_v17 (F := Ideal) x = Cert.Embed.delayEmbed x := by
  funext y
  unfold Cert.ReferenceIdeal.Read.val_main_v17
  have hd : gather_S4194304_S4194180x32x1_S4194180x32_n_0_n_n_0_2_1
      = takeDims 4194304 4194180 32 Facts₀.gather_S4194304_S4194180x32x1_S4194180x32_n_0_n_n_0_2_1_wf := rfl
  rw [hd, gather_take_apply (by norm_num)]
  have hj := idx2_lt0 y
  have hk := idx2_lt1 y
  have hw := idxWord_toNat (y 0).val (y 1).val hj hk
  -- the index is not negative, so the select keeps it
  have hsel : Read.val_main_v16 (F := Ideal) (takeIdx y) = idxWord (y 0).val (y 1).val := by
    rw [table_apply]
    have hc : IntOp.cmpi .slt (idxWord (y 0).val (y 1).val) 0#32 = 0#1 :=
      eq_zero_of_ne_one fun h => by
        have := (slt_iff_toNat (by omega) (by decide)).mp h
        simp at this
    rw [hc, select_zero]
  -- read signed it is j + 4 * k, which the clamp to the series' last sample leaves alone
  have hi : (idxWord (y 0).val (y 1).val).toInt = ((y 0).val + 4 * (y 1).val : Nat) := by
    rw [toInt_eq_toNat_of_lt (by omega), hw]
  unfold Cert.Embed.delayEmbed
  refine congrArg (fun a => x (ix1 a)) (Fin.ext ?_)
  show min (Read.val_main_v16 (F := Ideal) (takeIdx y)).toInt.toNat (4194304 - 1) = (y 0).val + 4 * (y 1).val
  rw [hsel, hi, Int.toNat_natCast]
  omega

end Cert.RefSide

end
-- ==== Proof.IdealBody.lean ====
/-
  The kernel body at one grid point.

  The body is handed three buffers: a block X0 of 16384 consecutive samples, the block X1 of the 128
  samples that follow it, and an output block of 16384 rows and 32 columns. It joins X0 and X1 into one
  window of 16512 samples and, for k = 0, ..., 31, stores the window's samples 4k, ..., 4k + 16383 as
  column k of the output block. So entry (r, k) of the output block is sample r + 4k of the window,
  whatever the output buffer held before: the 32 columns tile the block. The two input buffers are
  only read.
-/
import proofs.«177202_j87351044866353_1_alg».proof.Proof.Gen.KernelIdeal.Launch
import proofs.«177202_j87351044866353_1_alg».proof.Proof.Gen.KernelIdeal.Skeleton
import proofs.«177202_j87351044866353_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- The whole of the first input block, -/
abbrev rMain : Rect S16384 := Rect.unit (s := S16384) ![0] S16384.size inb_S16384_S16384_0
/-- the whole of the second, -/
abbrev rTail : Rect S128 := Rect.unit (s := S128) ![0] S128.size inb_S128_S128_0
/-- and column k of the output block, k = 0, ..., 31. -/
abbrev col0 : Rect S16384x32 := Rect.unit (s := S16384x32) ![0, 0] S16384x1.size inb_S16384x32_S16384x1_0_0
abbrev col1 : Rect S16384x32 := Rect.unit (s := S16384x32) ![0, 1] S16384x1.size inb_S16384x32_S16384x1_0_1
abbrev col2 : Rect S16384x32 := Rect.unit (s := S16384x32) ![0, 2] S16384x1.size inb_S16384x32_S16384x1_0_2
abbrev col3 : Rect S16384x32 := Rect.unit (s := S16384x32) ![0, 3] S16384x1.size inb_S16384x32_S16384x1_0_3
abbrev col4 : Rect S16384x32 := Rect.unit (s := S16384x32) ![0, 4] S16384x1.size inb_S16384x32_S16384x1_0_4
abbrev col5 : Rect S16384x32 := Rect.unit (s := S16384x32) ![0, 5] S16384x1.size inb_S16384x32_S16384x1_0_5
abbrev col6 : Rect S16384x32 := Rect.unit (s := S16384x32) ![0, 6] S16384x1.size inb_S16384x32_S16384x1_0_6
abbrev col7 : Rect S16384x32 := Rect.unit (s := S16384x32) ![0, 7] S16384x1.size inb_S16384x32_S16384x1_0_7
abbrev col8 : Rect S16384x32 := Rect.unit (s := S16384x32) ![0, 8] S16384x1.size inb_S16384x32_S16384x1_0_8
abbrev col9 : Rect S16384x32 := Rect.unit (s := S16384x32) ![0, 9] S16384x1.size inb_S16384x32_S16384x1_0_9
abbrev col10 : Rect S16384x32 := Rect.unit (s := S16384x32) ![0, 10] S16384x1.size inb_S16384x32_S16384x1_0_10
abbrev col11 : Rect S16384x32 := Rect.unit (s := S16384x32) ![0, 11] S16384x1.size inb_S16384x32_S16384x1_0_11
abbrev col12 : Rect S16384x32 := Rect.unit (s := S16384x32) ![0, 12] S16384x1.size inb_S16384x32_S16384x1_0_12
abbrev col13 : Rect S16384x32 := Rect.unit (s := S16384x32) ![0, 13] S16384x1.size inb_S16384x32_S16384x1_0_13
abbrev col14 : Rect S16384x32 := Rect.unit (s := S16384x32) ![0, 14] S16384x1.size inb_S16384x32_S16384x1_0_14
abbrev col15 : Rect S16384x32 := Rect.unit (s := S16384x32) ![0, 15] S16384x1.size inb_S16384x32_S16384x1_0_15
abbrev col16 : Rect S16384x32 := Rect.unit (s := S16384x32) ![0, 16] S16384x1.size inb_S16384x32_S16384x1_0_16
abbrev col17 : Rect S16384x32 := Rect.unit (s := S16384x32) ![0, 17] S16384x1.size inb_S16384x32_S16384x1_0_17
abbrev col18 : Rect S16384x32 := Rect.unit (s := S16384x32) ![0, 18] S16384x1.size inb_S16384x32_S16384x1_0_18
abbrev col19 : Rect S16384x32 := Rect.unit (s := S16384x32) ![0, 19] S16384x1.size inb_S16384x32_S16384x1_0_19
abbrev col20 : Rect S16384x32 := Rect.unit (s := S16384x32) ![0, 20] S16384x1.size inb_S16384x32_S16384x1_0_20
abbrev col21 : Rect S16384x32 := Rect.unit (s := S16384x32) ![0, 21] S16384x1.size inb_S16384x32_S16384x1_0_21
abbrev col22 : Rect S16384x32 := Rect.unit (s := S16384x32) ![0, 22] S16384x1.size inb_S16384x32_S16384x1_0_22
abbrev col23 : Rect S16384x32 := Rect.unit (s := S16384x32) ![0, 23] S16384x1.size inb_S16384x32_S16384x1_0_23
abbrev col24 : Rect S16384x32 := Rect.unit (s := S16384x32) ![0, 24] S16384x1.size inb_S16384x32_S16384x1_0_24
abbrev col25 : Rect S16384x32 := Rect.unit (s := S16384x32) ![0, 25] S16384x1.size inb_S16384x32_S16384x1_0_25
abbrev col26 : Rect S16384x32 := Rect.unit (s := S16384x32) ![0, 26] S16384x1.size inb_S16384x32_S16384x1_0_26
abbrev col27 : Rect S16384x32 := Rect.unit (s := S16384x32) ![0, 27] S16384x1.size inb_S16384x32_S16384x1_0_27
abbrev col28 : Rect S16384x32 := Rect.unit (s := S16384x32) ![0, 28] S16384x1.size inb_S16384x32_S16384x1_0_28
abbrev col29 : Rect S16384x32 := Rect.unit (s := S16384x32) ![0, 29] S16384x1.size inb_S16384x32_S16384x1_0_29
abbrev col30 : Rect S16384x32 := Rect.unit (s := S16384x32) ![0, 30] S16384x1.size inb_S16384x32_S16384x1_0_30
abbrev col31 : Rect S16384x32 := Rect.unit (s := S16384x32) ![0, 31] S16384x1.size inb_S16384x32_S16384x1_0_31

/-! ## What the body leaves in the output block -/

/-- The window of 16512 samples the body assembles: the first input block followed by the second. -/
def window (x0 : Vec F S16384 .f32) (x1 : Vec F S128 .f32) : FVec F S16512 .f32 :=
  k0_pay9 (View.ld x0 rMain) (View.ld x1 rTail)

/-- The stretch of 16384 samples of a window that starts at sample o, as a column. -/
abbrev stretch (w : FVec F S16512 .f32) (o : Nat) (h : S16512.Slices (![o] : Fin 1 → Nat) S16384) : FVec F S16384x1 .f32 :=
  shapeCast S16384x1 (extractStridedSlice S16384 ![o] w h) shapeCasts_S16384_S16384x1

/-- The body's 32 stores as pieces, the last store first: column k receives the window's stretch from 4k. -/
def pieces (x0 : Vec F S16384 .f32) (x1 : Vec F S128 .f32) : List (View.Piece (Elt F) S16384x32 .f32) :=
  [⟨col31, stretch (window x0 x1) 124 slices_S16512_o124_S16384⟩,
   ⟨col30, stretch (window x0 x1) 120 slices_S16512_o120_S16384⟩,
   ⟨col29, stretch (window x0 x1) 116 slices_S16512_o116_S16384⟩,
   ⟨col28, stretch (window x0 x1) 112 slices_S16512_o112_S16384⟩,
   ⟨col27, stretch (window x0 x1) 108 slices_S16512_o108_S16384⟩,
   ⟨col26, stretch (window x0 x1) 104 slices_S16512_o104_S16384⟩,
   ⟨col25, stretch (window x0 x1) 100 slices_S16512_o100_S16384⟩,
   ⟨col24, stretch (window x0 x1) 96 slices_S16512_o96_S16384⟩,
   ⟨col23, stretch (window x0 x1) 92 slices_S16512_o92_S16384⟩,
   ⟨col22, stretch (window x0 x1) 88 slices_S16512_o88_S16384⟩,
   ⟨col21, stretch (window x0 x1) 84 slices_S16512_o84_S16384⟩,
   ⟨col20, stretch (window x0 x1) 80 slices_S16512_o80_S16384⟩,
   ⟨col19, stretch (window x0 x1) 76 slices_S16512_o76_S16384⟩,
   ⟨col18, stretch (window x0 x1) 72 slices_S16512_o72_S16384⟩,
   ⟨col17, stretch (window x0 x1) 68 slices_S16512_o68_S16384⟩,
   ⟨col16, stretch (window x0 x1) 64 slices_S16512_o64_S16384⟩,
   ⟨col15, stretch (window x0 x1) 60 slices_S16512_o60_S16384⟩,
   ⟨col14, stretch (window x0 x1) 56 slices_S16512_o56_S16384⟩,
   ⟨col13, stretch (window x0 x1) 52 slices_S16512_o52_S16384⟩,
   ⟨col12, stretch (window x0 x1) 48 slices_S16512_o48_S16384⟩,
   ⟨col11, stretch (window x0 x1) 44 slices_S16512_o44_S16384⟩,
   ⟨col10, stretch (window x0 x1) 40 slices_S16512_o40_S16384⟩,
   ⟨col9, stretch (window x0 x1) 36 slices_S16512_o36_S16384⟩,
   ⟨col8, stretch (window x0 x1) 32 slices_S16512_o32_S16384⟩,
   ⟨col7, stretch (window x0 x1) 28 slices_S16512_o28_S16384⟩,
   ⟨col6, stretch (window x0 x1) 24 slices_S16512_o24_S16384⟩,
   ⟨col5, stretch (window x0 x1) 20 slices_S16512_o20_S16384⟩,
   ⟨col4, stretch (window x0 x1) 16 slices_S16512_o16_S16384⟩,
   ⟨col3, stretch (window x0 x1) 12 slices_S16512_o12_S16384⟩,
   ⟨col2, stretch (window x0 x1) 8 slices_S16512_o8_S16384⟩,
   ⟨col1, stretch (window x0 x1) 4 slices_S16512_o4_S16384⟩,
   ⟨col0, stretch (window x0 x1) 0 slices_S16512_o0_S16384⟩]

/-- The output block after the body, as a function of the two input blocks alone. -/
def outBlock (x0 : Vec F S16384 .f32) (x1 : Vec F S128 .f32) : Vec F S16384x32 .f32 :=
  View.canon (pieces x0 x1)

/-- The 32 columns tile the output block, so every entry of it lies in one of them. -/
theorem cover_cols (x0 : Vec F S16384 .f32) (x1 : Vec F S128 .f32) (y : S16384x32.Idx) :
    ∃ pc ∈ pieces x0 x1, y ∈ pc.1.set :=
  View.cover_of_tiled (pieces x0 x1) S16384x1.size (by rfl) y

/-! ## The body's triple -/

set_option maxHeartbeats 4000000 in
/-- On whole buffers, the inputs holding x0 and x1 and the output holding anything, the body runs to its
    end leaving the inputs as they were and the output block at the columns of the window of x0 and x1. -/
theorem sound_kernel (c : Dev nD) (E : Set ℕ) (i : grid0.Coords)
    (arg1 : Memref sig .tc .vmem S16384 .f32) (harg1 : arg1.IsWhole)
    (arg2 : Memref sig .tc .vmem S128 .f32) (harg2 : arg2.IsWhole)
    (arg3 : Memref sig .tc .vmem S16384x32 .f32) (harg3 : arg3.IsWhole)
    (x0 : Vec F S16384 .f32) (x1 : Vec F S128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
              ∗ owns (c : Thread nD τ) arg3 fullShare (outBlock x0 x1)) -∗ K ⟨⟩))
      ⊢ wp frame (wpE (defs₀ (F := F)) Variants.none c none) E (cc0__embed_kernel i arg1 harg1 arg2 harg2 arg3 harg3) K := by
  simp only [cc0__embed_kernel_eq_skeleton]; unfold cc0__embed_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_cols _ _)

end Cert.KernelIdeal.Emb

end
-- ==== Proof.IdealData.lean ====
/-
  The kernel's run, from the launch to the result.

  The host first pads the series of 4194304 samples with 128 zeros. The one kernel region then visits 256
  grid points; at point t it is handed samples 16384 t, ..., 16384 t + 16383 of the padded series (its
  first window) and the 128 samples that follow them (its second window, block t + 1 at a block size of
  128 on the SAME padded series), and writes rows 16384 t, ..., 16384 t + 16383 of a table of 4194304
  rows and 32 columns. Last the host keeps the table's first 4194180 rows.
  The two input windows read one array, so the array's ownership is dealt between them in two halves at
  the region's entry and joined again at its exit.
-/
import proofs.«177202_j87351044866353_1_alg».proof.Proof.IdealBody
import Idealize.ShloMosaic.Lib.Pipeline.FrameSuffix

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: one copy of the pipeline's. -/
abbrev EP : Emb (UR sig nD τ) (MT nD τ sig Unit (Elt F) ℕ (UR sig nD τ) ℕ) := emb₁

variable (m : (ℓ : Loc nD τ sig) → Buf (Elt F) ℓ) (ρ : Dev nD → PrngReg)

/-! ## The host lines around the region -/

/-- The buffers' contents when the region is entered: after the zero constant and the padding. -/
abbrev V0 (c : Dev nD) : Valuation τ sig (Elt F) := StableHlo.after (List.flatten [hostOps0, hostOps0_1]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the two host stretches, the region, and the last host line: it reduces to the region
    continued by that line, at the contents after the two stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

/-! ## The two input blocks at a grid point -/

/-- No block of the first window runs past the padded series on the grid: 256 blocks of 16384 end at 4194304. -/
theorem clip0_none : ∀ (t : Fin cfg0.N) (a : Fin 1), (cfg0.win 0).clip (cfg0.grid.coords t) a = none := by
  exact (by decide +kernel : ∀ (t : Fin grid0.N) (a : Fin 1), win0_0.clip (grid0.coords t) a = none)

/-- The first window's block at point t, as a whole staging buffer. -/
def blk0 (c : Dev nD) (t : Fin cfg0.N) : Vec F S16384 .f32 :=
  win0_0.fill (grid0.coords t) (fun _ => Scalar.ofBits .f32 0#32) ((win0_0.blk t).view.read (Elt F) (V m c main_v0))

/-- The second window's block at point t. -/
def blk1 (c : Dev nD) (t : Fin cfg0.N) : Vec F S128 .f32 :=
  (win0_1.blk t).view.read (Elt F) (V m c main_v0)

/-! ## The proof data -/

/-- The arrays as the region finds them; after the body at point t the two input buffers at their blocks and
    the output buffer at the columns of their window; nothing else kept; the padded series held in two halves. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => blk1 m c t
    | ⟨2, _⟩ => outBlock (blk0 m c t) (blk1 m c t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = blk0 m c t := by dsimp only [dats]
theorem after1 (c : Dev nD) (t : Fin cfg0.N) : (dats m 0 c).after 1 t = blk1 m c t := by dsimp only [dats]
theorem after2 (c : Dev nD) (t : Fin cfg0.N) : (dats m 0 c).after 2 t = outBlock (blk0 m c t) (blk1 m c t) := by dsimp only [dats]

/-- What the body finds in the first input buffer at point t: the block just fetched. -/
theorem before0 (c : Dev nD) (t : Fin cfg0.N) (d) : (dats m 0 c).before 0 t d = blk0 m c t := by
  unfold Dat.before
  rw [if_pos (fetch0_0 t)]
  -- the fetch is not cut, so nothing of what the buffer held before survives it
  rw [(dats m 0 c).fetched_of_clip_none 0 t (clip0_none t) d (fun _ => Scalar.ofBits .f32 0#32)]
  unfold Dat.fetched Dat.blockOf blk0
  rw [A_eq]
/-- And in the second. -/
theorem before1 (c : Dev nD) (t : Fin cfg0.N) (d) : (dats m 0 c).before 1 t d = blk1 m c t := by
  unfold Dat.before
  rw [if_pos (fetch0_1 t)]
  unfold Dat.fetched Dat.blockOf blk1
  rw [A_eq]
  rfl

/-! ## The body obligation -/

theorem body_obligation (c : Dev nD) : BodyObligation (dats (F := F) m 0 c) (defs₀ (F := F)) Variants.none () Set.univ := by
  intro t
  rw [bigSep_W0, bigSep_W0]
  -- nothing is kept beside the buffers and nothing is owed, at either end of the point
  rw [show (dats m 0 c).Φ t.succ = (dats m 0 c).Φ t.castSucc from rfl,
    show (dats m 0 c).owesAt () t.succ = (dats m 0 c).owesAt () t.castSucc from rfl]
  simp only [before0, before1, after0, after1, after2]
  iintro ⟨HΦ, Ho, ⟨%d0, H0⟩, ⟨%d1, H1⟩, ⟨%d2, H2⟩⟩
  iapply (sound_kernel c Set.univ _ _ _ _ _ _ _ (blk0 m c t) (blk1 m c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Emb

end
-- ==== Proof.IdealShares.lean ====
/-
  The padded series in two halves.

  The kernel's first two windows read ONE array, the padded series. At the region's entry the series' full
  ownership is dealt to them in two halves, the left half to the first window and the right half to the
  second; at its exit the halves are joined again. The table, the third window's array, is held whole.
-/
import proofs.«177202_j87351044866353_1_alg».proof.Proof.IdealData
import Idealize.ShloMosaic.Lib.ValueIdx

set_option maxRecDepth 16384

noncomputable section

namespace Cert.KernelIdeal.Emb

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

variable (m : (ℓ : Loc nD τ sig) → Buf (Elt F) ℓ)

/-- The first window holds the padded series at the left half of its ownership. -/
theorem share0 (c : Dev nD) : (dats (F := F) m 0 c).share 0 = fullShare.left := by
  unfold Dat.share; rfl
/-- The second window holds it at the right half. -/
theorem share1 (c : Dev nD) : (dats (F := F) m 0 c).share 1 = fullShare.right := by
  unfold Dat.share; rfl
/-- The third window, the output, holds the table whole. -/
theorem share2 (c : Dev nD) : (dats (F := F) m 0 c).share 2 = fullShare := by
  unfold Dat.share; rfl

/-- The two arrays behind the three windows, each whole, are the windows' arrays at the proof data's shares:
    the padded series in its left half for the first window and in its right half for the second (both at the
    SAME contents), the table whole. -/
theorem arrays_iff (c : Dev nD) (A0 : Buf (Elt F) ((c : Thread nD τ).loc main_v0)) (A2 : Buf (Elt F) ((c : Thread nD τ).loc main_v1)) :
    (iprop((((c : Thread nD τ).loc main_v0) ↦{fullShare} A0) ∗ (((c : Thread nD τ).loc main_v1) ↦{fullShare} A2)) : sProp 𝕄)
      ⊣⊢ (dats m 0 c).arrays (fun w => match w with | ⟨0, _⟩ => A0 | ⟨1, _⟩ => A0 | ⟨2, _⟩ => A2) := by
  -- each window's array is a whole buffer, so its view is every element of it (the first two windows' views are one and the same)
  have h0 : (cfg0.win 0).arr.view.set = Finset.univ := (Memref.isWhole_whole main_v0).set_eq_univ
  have h2 : (cfg0.win 2).arr.view.set = Finset.univ := (Memref.isWhole_whole main_v1).set_eq_univ
  unfold Dat.arrays
  rw [bigSep_W0, h0, h2, share0, share1, share2]
  show (iprop((((c : Thread nD τ).loc main_v0) ↦{fullShare} A0) ∗ (((c : Thread nD τ).loc main_v1) ↦{fullShare} A2)) : sProp 𝕄)
    ⊣⊢ iprop((((c : Thread nD τ).loc main_v0) ↦{fullShare.left} A0) ∗ (((c : Thread nD τ).loc main_v0) ↦{fullShare.right} A0)
        ∗ (((c : Thread nD τ).loc main_v1) ↦{fullShare} A2))
  constructor
  · -- the whole series is dealt into its two halves
    iintro ⟨H0, H2⟩
    ihave H0 := (pointsTo_share (PosShare.mem_left_op_right fullShare)).1 $$ H0
    icases H0 with ⟨Hl, Hr⟩
    isplitl [Hl]; · iexact Hl
    isplitl [Hr]; · iexact Hr
    iexact H2
  · -- and the two halves, at the same contents, are joined again
    iintro ⟨Hl, Hr, H2⟩
    isplitr [H2]
    · iapply (pointsTo_share (PosShare.mem_left_op_right fullShare)).2
      isplitl [Hl]; · iexact Hl
      iexact Hr
    · iexact H2

/-- The distinct buffers behind the windows' arrays are the padded series and the table. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1)) := by
  -- the three windows name two buffers: the first two the padded series, the third the table
  unfold Pipeline.arrBufs
  rw [bigSep_eq_bigSepL_of_eq [main_v0, main_v1] (by decide) (by decide)]
  rfl

end Cert.KernelIdeal.Emb

end
-- ==== Proof.IdealRun.lean ====
/-
  The kernel's run as a whole.

  From any memory, every fair run of the program ends; at the end the result buffer holds the first
  4194180 rows of the table the region wrote, and the series the program was launched on is unchanged.
  The region is entered with the padded series dealt in two halves to its two input windows; it is left
  with the halves joined again, and the last host line then reads the table and writes the result.
-/
import proofs.«177202_j87351044866353_1_alg».proof.Proof.IdealData
import proofs.«177202_j87351044866353_1_alg».proof.Proof.IdealShares

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host line before the region writes the series: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes,
      StableHlo.TRef.unary, StableHlo.TRef.binary, Finset.mem_singleton]
    repeat' apply And.intro
    all_goals exact StableHlo.devRef_ne_of_ne (by decide)))

/-- The table after the region's last write-back. -/
abbrev tableAt (c : Dev nD) : Buf (Elt F) ((c : Thread nD τ).loc main_v1) := (dats m 0 c).arrAt 2 cfg0.N

/-- The result the last host line computes: the table's first 4194180 rows. -/
abbrev keptRows (c : Dev nD) : Buf (Elt F) ((c : Thread nD τ).loc main_v2) :=
  extractStridedSlice S4194180x32 ![0, 0] (tableAt m c) slices_S4194304x32_S4194180x32_0_0

/-- The buffers that bypass the region, as the program leaves them: as the region found them, but for the
    result buffer, which holds the kept rows. -/
def Wend (c : Dev nD) : (b : Ref sig .tc) → Buf (Elt F) ((c : Thread nD τ).loc b) :=
  Function.update (V m c) main_v2 (keptRows m c)

/-- What is claimed of the final state: the result buffer at the kept rows, the series as launched. -/
def Post : PUnit × MemSt nD τ sig (Elt F) → Prop := fun r => ∀ c : Dev nD,
  r.2.mem ((c : Thread nD τ).loc main_v2) = keptRows m c
    ∧ r.2.mem ((c : Thread nD τ).loc main_arg0) = m ((c : Thread nD τ).loc main_arg0)

/-- The pipeline's launch element: every staging cell's owner at round 0 and a token for every transfer. -/
def u₀ : UR sig nD τ := initOf (Pipeline.cells cfgs cellOf_inj) (Pipeline.launchToks cfgs cellOf_inj)

/-- The last host line, run from the region's exit: it reads the table and writes the result buffer; the
    padded series' two halves and the other bypassing buffers pass through. -/
theorem htail (c : Dev nD) (Q' : PUnit → sProp 𝕄) :
    iprop((iprop((dats m 0 c).arrays ((dats m 0 c).arrAt · cfg0.N) ∗ Pipeline.unscopedRest spec0 c (Wend m c)) -∗ Q' ⟨⟩)
        ∗ boundary (c : Thread nD τ) ∗ (dats m 0 c).arrays ((dats m 0 c).arrAt · cfg0.N) ∗ Pipeline.unscopedRest spec0 c (V m c))
      ⊢ wp frame (wpE (defs (F := F)) (Variants.lift Variants.none) (c : Thread nD τ) none) Set.univ (Pipeline.chain [StableHlo.seq hostOps1]) Q' := by
  classical
  -- at the region's exit the two input windows' array is as found, and the third's is the table
  have eN : (fun w => (dats m 0 c).arrAt w cfg0.N)
      = (fun w => match w with | ⟨0, _⟩ => V m c main_v0 | ⟨1, _⟩ => V m c main_v0 | ⟨2, _⟩ => tableAt m c) :=
    funext fun w => match w with
      | ⟨0, _⟩ => ((dats m 0 c).arrAt_in (0 : Fin 3) rfl _).trans (A_eq m c 0)
      | ⟨1, _⟩ => ((dats m 0 c).arrAt_in (1 : Fin 3) rfl _).trans (A_eq m c 1)
      | ⟨2, _⟩ => rfl
  -- the bypassing buffers at the end: only the result buffer differs
  have w0 : Wend m c main_arg0 = V m c main_arg0 := Function.update_of_ne (by decide) ..
  have w1 : Wend m c main_c = V m c main_c := Function.update_of_ne (by decide) ..
  have w2 : Wend m c main_call0_v0 = V m c main_call0_v0 := Function.update_of_ne (by decide) ..
  have w3 : Wend m c main_v2 = keptRows m c := Function.update_self ..
  rw [eN, unscopedRest0_eq, unscopedRest0_eq, w0, w1, w2, w3]
  -- the last line's two buffers, the table and the result buffer, held at a valuation that has the table at the table's buffer
  let S : Finset (DevRef τ sig) := {Proc.devRef .tc main_v1, Proc.devRef .tc main_v2}
  let W : Valuation τ sig (Elt F) := Function.update (V0 m c) (Proc.devRef .tc main_v1) (tableAt m c)
  have hne : (Proc.devRef (τ := τ) .tc main_v1 : DevRef τ sig) ≠ Proc.devRef .tc main_v2 := StableHlo.devRef_ne_of_ne (by decide)
  have hWv1 : W (Proc.devRef .tc main_v1) = tableAt m c := Function.update_self ..
  have hWv2 : W (Proc.devRef .tc main_v2) = V m c main_v2 := Function.update_of_ne hne.symm ..
  have hS : (StableHlo.held (c : Thread nD τ) S W : sProp 𝕄)
      = iprop((((c : Thread nD τ).loc main_v1) ↦{fullShare} tableAt m c) ∗ (((c : Thread nD τ).loc main_v2) ↦{fullShare} V m c main_v2)) := by
    unfold StableHlo.held
    rw [bigSep_insert (by rw [Finset.mem_singleton]; exact hne), bigSep_singleton, hWv1, hWv2]
    rfl
  -- the line reads the table and writes the result buffer
  have hA1 : StableHlo.after hostOps1 W (Proc.devRef .tc main_v1) = tableAt m c := by
    simp only [hostOps1]; after_results; exact hWv1
  have hA2 : StableHlo.after hostOps1 W (Proc.devRef .tc main_v2) = keptRows m c := by
    simp only [hostOps1]; after_results; rw [hWv1]
  have hS' : (StableHlo.held (c : Thread nD τ) S (StableHlo.after ([hostOps1] : List (List (HloOp τ sig (Elt F)))).flatten W) : sProp 𝕄)
      = iprop((((c : Thread nD τ).loc main_v1) ↦{fullShare} tableAt m c) ∗ (((c : Thread nD τ).loc main_v2) ↦{fullShare} keptRows m c)) := by
    unfold StableHlo.held
    rw [List.flatten_cons, List.flatten_nil, List.append_nil,
      bigSep_insert (by rw [Finset.mem_singleton]; exact hne), bigSep_singleton, hA1, hA2]
    rfl
  have hsub : ∀ ops ∈ ([hostOps1] : List (List (HloOp τ sig (Elt F)))), ∀ op ∈ ops, op.bufs ⊆ S := by
    intro ops hops op hop
    simp only [List.mem_cons, List.mem_nil_iff, or_false] at hops
    subst hops
    simp only [hostOps1, List.mem_cons, List.mem_nil_iff, or_false] at hop
    subst hop
    exact Finset.Subset.refl _
  have hfr : ∀ ops ∈ ([hostOps1] : List (List (HloOp τ sig (Elt F)))), ∀ op ∈ ops, op.fresh = ∅ := by
    intro ops hops op hop
    simp only [List.mem_cons, List.mem_nil_iff, or_false] at hops
    subst hops
    exact (List.forall_iff_forall_mem.mp hostOps1_fresh) op hop
  show _ ⊢ wp frame _ Set.univ (Pipeline.chain (([hostOps1] : List (List (HloOp τ sig (Elt F)))).map StableHlo.seq ++ [])) Q'
  iintro ⟨Hk, Hb, Harr, Ha0, Hc0, Hcv, Hv2⟩
  ihave H01 := (arrays_iff m c _ _).2 $$ Harr
  icases H01 with ⟨Hv0, Hv1⟩
  iapply (Pipeline.wp_seqs_then (fun q => (cfgs q).toPCfg (Val := Elt F)) defs₀ Variants.none c S [] [hostOps1] hsub hfr W) $$ [Hb Hv1 Hv2]
  · rw [hS]
    isplitl [Hb]; · iexact Hb
    isplitl [Hv1]; · iexact Hv1
    iexact Hv2
  iintro ⟨Hb, Hh⟩
  ihave Hh' := (Entails.of_eq hS') $$ Hh
  icases Hh' with ⟨Hv1, Hv2⟩
  simp only [Pipeline.chain_nil, wp_pure]
  imodintro
  iapply Hk
  isplitl [Hv0 Hv1]
  · iapply (arrays_iff m c _ _).1
    isplitl [Hv0]; · iexact Hv0
    iexact Hv1
  isplitl [Ha0]; · iexact Ha0
  isplitl [Hc0]; · iexact Hc0
  isplitl [Hcv]; · iexact Hcv
  iexact Hv2

-- the launch theorem's implicit arguments are found by unifying its conclusion with this one, which takes
-- unfolding plain definitions in a metavariable's type
set_option backward.isDefEq.respectTransparency.types false in
/-- Every fair run of the program ends, in a state of which Post holds. -/
theorem run_main : θ_run defs (onTc (τ := τ) (main (F := F))) (s₀ m ρ) (Post m) :=
  Pipeline.θ_run_region_noSem_pf_tail (fun p => (cfgs p).toPCfg) (fun p => (cfgs p).toPCfg_adm) (dats m) () cellOf_inj (0 : Fin 1)
    winFacts₀0 (Pipeline.PreFacts.none _) EP defs₀ Variants.none m ρ main (fun _ => Pipeline.chain [StableHlo.seq hostOps1])
    (hbody := fun c => (body_obligation m c).loose)
    (hne := block_pos0) (harr := arr_whole0) (hstage := stage_whole0) (howed := fun _ _ => rfl)
    (u₀ := u₀) (hu₀ := BI.Entails.refl _)
    (V := V m) (hmain := hmain m Variants.none)
    (hsplit := fun c => by
      rw [arrBufs_eq]
      exact (arrays_iff m c _ _).1.trans (Entails.of_eq (congrArg (dats m 0 c).arrays (funext fun w =>
        match w with
        | ⟨0, _⟩ => rfl
        | ⟨1, _⟩ => rfl
        | ⟨2, _⟩ => rfl))))
    (hpf := fun _ k => k.elim0)
    (X := fun _ => iprop(emp)) (Y := fun _ => iprop(emp))
    (Z := fun c => Pipeline.unscopedRest spec0 c (V m c)) (Z' := fun c => Pipeline.unscopedRest spec0 c (Wend m c))
    (hX := fun c => by rw [Pipeline.unscopedRestP_none]; iintro H; isplitr; · iempintro
                       iexact H)
    (hin := fun _ => by rw [scopedRest0_eq]; iintro -; iempintro)
    (hout := fun _ => by rw [scopedRest0_eq]; iintro -; isplitr <;> iempintro)
    (htail := htail m)
    (QY := fun c s => ∀ b ∈ Pipeline.restRefs sig spec0, s.mem ((c : Thread nD τ).loc b) = Wend m c b)
    (hY := fun c s' => by
      iintro ⟨-, HU, HSI⟩
      unfold Pipeline.unscopedRest
      imodintro
      iapply (pointsTo_read_all (Pipeline.restRefs sig spec0) (fun b => (c : Thread nD τ).loc b) (Wend m c) s')
      isplitl [HU] <;> iassumption)
    (hQ := fun s h c => by
      have hr := (h c).2.2
      refine ⟨(hr main_v2 (by decide)).trans ?_, (hr main_arg0 (by decide)).trans ?_⟩
      · exact Function.update_self ..
      · exact (Function.update_of_ne (by decide) ..).trans (V_main_arg0 m c))

end Cert.KernelIdeal.Emb

end
-- ==== Proof.IdealBlock.lean ====
/-
  The output block read at an entry.

  The body leaves in its output block, at row r and column k, sample r + 4k of the window made of the first
  input block (16384 samples) followed by the second (128 samples): a sample of the first block while
  r + 4k < 16384, and sample r + 4k - 16384 of the second from there on (r + 4k ≤ 16383 + 124 < 16512).
-/
import proofs.«177202_j87351044866353_1_alg».proof.Proof.IdealBody
import Idealize.ShloMosaic.Lib.ValueIdx
import Idealize.ShloMosaic.Lib.Pipeline.Value
import Idealize.ShloMosaic.Lib.ValueLayout

set_option maxRecDepth 16384

noncomputable section

namespace Cert.KernelIdeal.Emb

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

/-- Row r and column k of an output block lie inside the window: r + 4k ≤ 16383 + 124. -/
theorem entry_lt (r : Fin 16384) (k : Fin 32) : r.val + 4 * k.val < 16512 := by
  have := r.isLt; have := k.isLt; omega

/-- The one offset of a rank-one rectangle over the whole of its shape is zero. -/
theorem off1_zero : (![0] : Fin 1 → Nat) = fun _ => 0 := funext fun a => match a with | ⟨0, _⟩ => rfl

/-- The window is the two blocks laid end to end: both loads are whole and both casts are of a shape to itself. -/
theorem window_eq (x0 : Vec F S16384 .f32) (x1 : Vec F S128 .f32) :
    window x0 x1 = concatenate S16512 0 [⟨S16384, x0⟩, ⟨S128, x1⟩] concatenates_S16384_S128_S16512_d0 := by
  unfold window k0_pay9
  rw [View.ld_unit_zero (S := S16384) off1_zero inb_S16384_S16384_0 x0,
    View.ld_unit_zero (S := S128) off1_zero inb_S128_S128_0 x1]
  show concatenate S16512 0 [⟨S16384, shapeCast S16384 x0 shapeCasts_S16384_S16384⟩,
    ⟨S128, shapeCast S128 x1 shapeCasts_S128_S128⟩] concatenates_S16384_S128_S16512_d0 = _
  rw [shapeCast_self, shapeCast_self]

/-- The window read at a sample: the first block, then the second. -/
theorem window_apply (x0 : Vec F S16384 .f32) (x1 : Vec F S128 .f32) (n : Fin 16512) :
    window x0 x1 (ix1 n) = if h : n.val < 16384 then x0 (ix1 ⟨n.val, h⟩) else x1 (ix1 ⟨n.val - 16384, by have := n.isLt; omega⟩) := by
  rw [window_eq]
  by_cases h : n.val < 16384
  · rw [dif_pos h]
    exact concatenate_pair_apply_left (t := S16512) (s₁ := S16384) (s₂ := S128) 0 x0 x1
      concatenates_S16384_S128_S16512_d0 (ix1 n) rfl (ix1 ⟨n.val, h⟩) (fun b => match b with | ⟨0, _⟩ => rfl)
  · rw [dif_neg h]
    exact concatenate_pair_apply_right (t := S16512) (s₁ := S16384) (s₂ := S128) 0 x0 x1
      concatenates_S16384_S128_S16512_d0 (ix1 n) rfl rfl (ix1 ⟨n.val - 16384, by have := n.isLt; omega⟩)
      (fun b hb => match b with | ⟨0, _⟩ => absurd rfl hb)
      (by show n.val - 16384 + 16384 = n.val; omega)

/-- The sample of a window that an entry of the output block holds: at row r and column k, sample r + 4k. -/
def colEntry (w : FVec F S16512 .f32) (y : S16384x32.Idx) : F .f32 :=
  w (ix1 ⟨(y 0).val + 4 * (y 1).val, entry_lt (y 0) (y 1)⟩)

/-- Column K's payload, the window's stretch from 4K, holds at each of its rows the sample its entry of the block names:
    the cast to a column keeps the row, the slice shifts it by 4K, and the column's rectangle puts row r at (r, K). -/
theorem stretch_col (w : FVec F S16512 .f32) (K o : Nat) (ho : o = 4 * K) (h : S16512.Slices (![o] : Fin 1 → Nat) S16384)
    (inb : ∀ a, (![0, K] : Fin 2 → Nat) a + S16384x1.size a ≤ S16384x32.size a) (x : S16384x1.Idx) :
    stretch w o h x = colEntry w ((Rect.unit (s := S16384x32) ![0, K] S16384x1.size inb).emb x) := by
  have h0 : (x 0).val < 16384 := (x 0).isLt
  have h1 : (x 1).val < 1 := (x 1).isLt
  have hK : K + 1 ≤ 32 := inb 1
  unfold stretch colEntry
  refine (shapeCast_apply _ _ x (ix1 ⟨(x 0).val, h0⟩) (by
    rw [Shape.rowMajor_val_one, Shape.rowMajor_val_two]
    show (x 0).val = (x 0).val * 1 + (x 1).val
    omega)).trans ?_
  refine (extractStridedSlice_apply (![o] : Fin 1 → Nat) w h (ix1 ⟨(x 0).val, h0⟩) (ix1 ⟨o + (x 0).val, by omega⟩)
    (fun a => match a with | ⟨0, _⟩ => rfl)).trans ?_
  refine congrArg w (congrArg ix1 (Fin.ext ?_))
  show o + (x 0).val = (0 + 1 * (x 0).val) + 4 * (K + 1 * (x 1).val)
  omega

/-- The output block at row r and column k is the window's sample r + 4k. -/
theorem outBlock_apply (x0 : Vec F S16384 .f32) (x1 : Vec F S128 .f32) (r : Fin 16384) (k : Fin 32) :
    outBlock x0 x1 (ix2 r k) = window x0 x1 (ix1 ⟨r.val + 4 * k.val, entry_lt r k⟩) := by
  refine View.canon_apply_of_pieces (colEntry (window x0 x1)) (pieces x0 x1) ?_ (ix2 r k) (cover_cols x0 x1 _)
  intro p hp x
  simp only [pieces, List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
    exact stretch_col (F := F) (window x0 x1) _ _ (by rfl) (by decide) (by decide) x

end Cert.KernelIdeal.Emb

end
-- ==== Proof.IdealValue.lean ====
/-
  The kernel's result is the delay embedding of the series.

  The padded series p holds the series x on its first 4194304 samples and zeros on the last 128. At grid
  point t the first window's block is p[16384 t + y], y < 16384, and the second's is p[16384 (t + 1) + y],
  y < 128, so their window is p[16384 t + n], n < 16512, and the output block's entry (r, k) is
  p[16384 t + r + 4k]. The 256 output blocks tile the table of 4194304 rows, row R lying in block
  R / 16384, so the table's entry (R, k) is p[R + 4k]; on the rows the host keeps, R < 4194180, the sample
  R + 4k is below 4194304 and p is x there: entry (R, k) of the result is x[R + 4k].
-/
import proofs.«177202_j87351044866353_1_alg».proof.Proof.IdealData
import proofs.«177202_j87351044866353_1_alg».proof.Proof.IdealBlock
import proofs.«177202_j87351044866353_1_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.Lib.KernelVsHost

set_option maxRecDepth 16384

noncomputable section

namespace Cert.KernelIdeal.Emb

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

variable (m : (ℓ : Loc nD τ sig) → Buf (Elt F) ℓ)

/-- The table after the run, as the library computes it from the proof data. -/
abbrev table (c : Dev nD) : (⟨S4194304x32, .f32⟩ : BufTy).Contents (Elt F) := (dats m 0 c).arrAt 2 cfg0.N

/-- The block indices of the three windows at a grid point, decided over the 256 points: the first input
    window and the output move one block a point, the second input window sits one block of the first
    further on, counted in blocks of 128. -/
theorem idx_facts : ∀ t : Fin cfg0.N, win0_0.index t (0 : Fin 1) = t.val ∧ win0_1.index t (0 : Fin 1) = (t.val + 1) * 128
    ∧ win0_2.index t (0 : Fin 2) = t.val ∧ win0_2.index t (1 : Fin 2) = 0 :=
  (by decide +kernel : ∀ t : Fin grid0.N, _)

/-- The grid has 256 points. -/
theorem point_lt (t : Fin cfg0.N) : t.val < 256 := lt_of_lt_of_eq t.isLt N_0

/-- The padded series as the region finds it: the series followed by 128 copies of the converted zero. -/
theorem padded_eq (c : Dev nD) : (V m c main_v0 : S4194432.Idx → Elt F .f32)
    = pad S4194432 ![0] ![128] ![0] (m ((c : Thread nD τ).loc main_arg0)) (sitofp (F := F) .f32 (constantI S_ 32 0#32)) pads_S4194304_S4194432_01280 h_S_ := by
  dsimp only [V, V0]
  simp only [hostOps0, hostOps0_1, List.flatten_cons, List.flatten_nil, List.append_nil, List.cons_append, List.nil_append]
  after_results
  rfl

/-- Below 4194304 the padded series is the series. -/
theorem padded_apply (c : Dev nD) (n : Fin 4194304) (h : n.val < 4194432) :
    (V m c main_v0 : S4194432.Idx → Elt F .f32) (ix1 ⟨n.val, h⟩)
      = (m ((c : Thread nD τ).loc main_arg0) : S4194304.Idx → Elt F .f32) (ix1 n) := by
  rw [padded_eq]
  refine pad_apply_of_inside _ _ _ _ _ _ _ _ (ix1 n) fun a => ?_
  have ha : a = 0 := Subsingleton.elim _ _
  subst ha
  show n.val = 0 + n.val * (0 + 1)
  omega

/-- The first window's block at point t holds samples 16384 t + y of the padded series. -/
theorem blk0_apply (c : Dev nD) (t : Fin cfg0.N) (y : Fin 16384) (h : 16384 * t.val + y.val < 4194432) :
    blk0 m c t (ix1 y) = (V m c main_v0 : S4194432.Idx → Elt F .f32) (ix1 ⟨16384 * t.val + y.val, h⟩) := by
  have hm : win0_0.moved (grid0.coords t) (ix1 y) = true :=
    (win0_0.moved_iff _ _).mpr fun a => by
      have := ((ix1 y : S16384.Idx) a).isLt; unfold Window.xsize; rw [clip0_none t a]; exact this
  unfold blk0 Window.fill
  rw [dif_pos hm, View.read_apply]
  refine congrArg (V m c main_v0) (funext fun a => Fin.ext ?_)
  match a with
  | ⟨0, _⟩ =>
    show win0_0.index t (0 : Fin 1) * 16384 + 1 * y.val = 16384 * t.val + y.val
    rw [(idx_facts t).1]; omega

/-- The second window's block at point t holds the 128 samples that follow the first's. -/
theorem blk1_apply (c : Dev nD) (t : Fin cfg0.N) (y : Fin 128) (h : 16384 * (t.val + 1) + y.val < 4194432) :
    blk1 m c t (ix1 y) = (V m c main_v0 : S4194432.Idx → Elt F .f32) (ix1 ⟨16384 * (t.val + 1) + y.val, h⟩) := by
  unfold blk1
  rw [View.read_apply]
  refine congrArg (V m c main_v0) (funext fun a => Fin.ext ?_)
  match a with
  | ⟨0, _⟩ =>
    show win0_1.index t (0 : Fin 1) * 128 + 1 * y.val = 16384 * (t.val + 1) + y.val
    rw [(idx_facts t).2.1]; omega

/-- Sample r + 4k counted from the start of block t lies inside the padded series. -/
theorem sample_lt (t : Fin cfg0.N) (r : Fin 16384) (k : Fin 32) : 16384 * t.val + r.val + 4 * k.val < 4194432 := by
  have := point_lt t; have := r.isLt; have := k.isLt; omega

/-- The output block of point t at row r and column k is sample 16384 t + r + 4k of the padded series,
    whether that sample falls in the first input block or in the second. -/
theorem after2_apply (c : Dev nD) (t : Fin cfg0.N) (r : Fin 16384) (k : Fin 32) :
    (dats m 0 c).after 2 t (ix2 r k)
      = (V m c main_v0 : S4194432.Idx → Elt F .f32) (ix1 ⟨16384 * t.val + r.val + 4 * k.val, sample_lt t r k⟩) := by
  have ht := point_lt t
  have hr := r.isLt
  have hk := k.isLt
  rw [after2, outBlock_apply, window_apply]
  split
  · rename_i hlt
    dsimp only at hlt
    refine (blk0_apply m c t _ (by dsimp only; omega)).trans ?_
    exact congrArg (V m c main_v0) (congrArg ix1 (Fin.ext (by dsimp only; omega)))
  · rename_i hge
    dsimp only at hge
    refine (blk1_apply m c t _ (by dsimp only; omega)).trans ?_
    exact congrArg (V m c main_v0) (congrArg ix1 (Fin.ext (by dsimp only; omega)))

/-- The table as one function of the padded series: entry (R, k) is sample R + 4k. -/
abbrev delayed (c : Dev nD) : S4194304x32.Idx → Elt F .f32 := fun Y =>
  (V m c main_v0 : S4194432.Idx → Elt F .f32) (ix1 ⟨(Y 0).val + 4 * (Y 1).val, by
    have h0 : (Y 0).val < 4194304 := (Y 0).isLt
    have h1 : (Y 1).val < 32 := (Y 1).isLt
    omega⟩)

/-- What point t writes back is block t of that function: rows 16384 t + r. -/
theorem flushed_eq (c : Dev nD) (t : Fin cfg0.N) :
    (dats m 0 c).flushed 2 t = ((cfg0.win 2).blk t).view.read (Elt F) (delayed m c) := by
  show (cfg0.win 2).cut (grid0.coords t) ((dats m 0 c).after 2 t) = _
  funext j
  rw [View.read_apply]
  have hj0 : (j 0).val < 16384 := (j 0).isLt
  have hj1 : (j 1).val < 32 := (j 1).isLt
  have e : win0_2.xinj (grid0.coords t) j = ix2 (⟨(j 0).val, hj0⟩ : Fin 16384) (⟨(j 1).val, hj1⟩ : Fin 32) := by
    funext a
    match a with
    | ⟨0, _⟩ => rfl
    | ⟨1, _⟩ => rfl
  show (dats m 0 c).after 2 t (win0_2.xinj (grid0.coords t) j) = _
  rw [e]
  refine (after2_apply m c t _ _).trans ?_
  refine congrArg (V m c main_v0) (congrArg ix1 (Fin.ext ?_))
  show 16384 * t.val + (j 0).val + 4 * (j 1).val
    = (win0_2.index t (0 : Fin 2) * 16384 + 1 * (j 0).val) + 4 * (win0_2.index t (1 : Fin 2) * 32 + 1 * (j 1).val)
  rw [(idx_facts t).2.2.1, (idx_facts t).2.2.2]
  omega

/-- An index of the table lies in point t's block iff each coordinate lies in the block's range on its axis. -/
theorem mem_blk (t : Fin cfg0.N) (i : S4194304x32.Idx) :
    i ∈ ((cfg0.win 2).blk t).view.set ↔ ∀ a : Fin 2, win0_2.index t a * S16384x32.size a ≤ (i a).val
      ∧ (i a).val < win0_2.index t a * S16384x32.size a + S16384x32.size a := by
  show i ∈ ((View.whole main_v1).slice (win0_2.rect t)).set ↔ _
  rw [View.set_slice_whole, Rect.mem_set_unit]
  exact Iff.rfl

/-- The 256 blocks of 16384 rows tile the table's 4194304 rows: row R lies in block R / 16384. -/
theorem covered (i : S4194304x32.Idx) :
    ∃ t : Fin cfg0.N, (cfg0.win 2).flush t = true ∧ i ∈ ((cfg0.win 2).blk t).view.set := by
  have hi0 : (i 0).val < 4194304 := (i 0).isLt
  have hi1 : (i 1).val < 32 := (i 1).isLt
  have hq : (i 0).val / 16384 < cfg0.N := lt_of_lt_of_eq (by omega) N_0.symm
  obtain ⟨t, ht⟩ : ∃ t : Fin cfg0.N, t.val = (i 0).val / 16384 := ⟨⟨_, hq⟩, rfl⟩
  refine ⟨t, flush0_2 t, ?_⟩
  rw [mem_blk]
  intro a
  match a with
  | ⟨0, _⟩ =>
    show win0_2.index t (0 : Fin 2) * 16384 ≤ (i 0).val ∧ (i 0).val < win0_2.index t (0 : Fin 2) * 16384 + 16384
    rw [(idx_facts t).2.2.1]; omega
  | ⟨1, _⟩ =>
    show win0_2.index t (1 : Fin 2) * 32 ≤ (i 1).val ∧ (i 1).val < win0_2.index t (1 : Fin 2) * 32 + 32
    rw [(idx_facts t).2.2.2]; omega

/-- The whole table after the run: entry (R, k) is sample R + 4k of the padded series. -/
theorem table_eq (c : Dev nD) : table m c = delayed m c :=
  (dats m 0 c).arrAt_eq_of_cover 2 (delayed m c) (fun t _ => flushed_eq m c t) covered

/-- The kept rows of the table are the delay embedding of the series the program was launched on. -/
theorem result_eq (c : Dev nD) :
    extractStridedSlice S4194180x32 ![0, 0] (table m c) slices_S4194304x32_S4194180x32_0_0
      = Cert.Embed.delayEmbed (m ((c : Thread nD τ).loc main_arg0)) := by
  funext y
  obtain ⟨R, k, rfl⟩ : ∃ (R : Fin 4194180) (k : Fin 32), y = ix2 R k := ⟨y 0, y 1, eq_ix2 y⟩
  have hR := R.isLt
  have hk := k.isLt
  rw [Cert.Embed.delayEmbed_ix2]
  refine (extractStridedSlice_apply _ _ _ (ix2 R k) (ix2 (⟨R.val, by omega⟩ : Fin 4194304) k) fun a => ?_).trans ?_
  · match a with
    | ⟨0, _⟩ => show R.val = 0 + R.val; omega
    | ⟨1, _⟩ => show k.val = 0 + k.val; omega
  · rw [table_eq]
    exact padded_apply m c ⟨R.val + 4 * k.val, by omega⟩ _

end Cert.KernelIdeal.Emb

end
-- ==== Proof.BitsBody.lean ====
/-
  The kernel body at one grid point.

  The body is handed three buffers: a block X0 of 16384 consecutive samples, the block X1 of the 128
  samples that follow it, and an output block of 16384 rows and 32 columns. It joins X0 and X1 into one
  window of 16512 samples and, for k = 0, ..., 31, stores the window's samples 4k, ..., 4k + 16383 as
  column k of the output block. So entry (r, k) of the output block is sample r + 4k of the window,
  whatever the output buffer held before: the 32 columns tile the block. The two input buffers are
  only read.
-/
import proofs.«177202_j87351044866353_1_alg».proof.Proof.Gen.Kernel.Launch
import proofs.«177202_j87351044866353_1_alg».proof.Proof.Gen.Kernel.Skeleton
import proofs.«177202_j87351044866353_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- The whole of the first input block, -/
abbrev rMain : Rect S16384 := Rect.unit (s := S16384) ![0] S16384.size inb_S16384_S16384_0
/-- the whole of the second, -/
abbrev rTail : Rect S128 := Rect.unit (s := S128) ![0] S128.size inb_S128_S128_0
/-- and column k of the output block, k = 0, ..., 31. -/
abbrev col0 : Rect S16384x32 := Rect.unit (s := S16384x32) ![0, 0] S16384x1.size inb_S16384x32_S16384x1_0_0
abbrev col1 : Rect S16384x32 := Rect.unit (s := S16384x32) ![0, 1] S16384x1.size inb_S16384x32_S16384x1_0_1
abbrev col2 : Rect S16384x32 := Rect.unit (s := S16384x32) ![0, 2] S16384x1.size inb_S16384x32_S16384x1_0_2
abbrev col3 : Rect S16384x32 := Rect.unit (s := S16384x32) ![0, 3] S16384x1.size inb_S16384x32_S16384x1_0_3
abbrev col4 : Rect S16384x32 := Rect.unit (s := S16384x32) ![0, 4] S16384x1.size inb_S16384x32_S16384x1_0_4
abbrev col5 : Rect S16384x32 := Rect.unit (s := S16384x32) ![0, 5] S16384x1.size inb_S16384x32_S16384x1_0_5
abbrev col6 : Rect S16384x32 := Rect.unit (s := S16384x32) ![0, 6] S16384x1.size inb_S16384x32_S16384x1_0_6
abbrev col7 : Rect S16384x32 := Rect.unit (s := S16384x32) ![0, 7] S16384x1.size inb_S16384x32_S16384x1_0_7
abbrev col8 : Rect S16384x32 := Rect.unit (s := S16384x32) ![0, 8] S16384x1.size inb_S16384x32_S16384x1_0_8
abbrev col9 : Rect S16384x32 := Rect.unit (s := S16384x32) ![0, 9] S16384x1.size inb_S16384x32_S16384x1_0_9
abbrev col10 : Rect S16384x32 := Rect.unit (s := S16384x32) ![0, 10] S16384x1.size inb_S16384x32_S16384x1_0_10
abbrev col11 : Rect S16384x32 := Rect.unit (s := S16384x32) ![0, 11] S16384x1.size inb_S16384x32_S16384x1_0_11
abbrev col12 : Rect S16384x32 := Rect.unit (s := S16384x32) ![0, 12] S16384x1.size inb_S16384x32_S16384x1_0_12
abbrev col13 : Rect S16384x32 := Rect.unit (s := S16384x32) ![0, 13] S16384x1.size inb_S16384x32_S16384x1_0_13
abbrev col14 : Rect S16384x32 := Rect.unit (s := S16384x32) ![0, 14] S16384x1.size inb_S16384x32_S16384x1_0_14
abbrev col15 : Rect S16384x32 := Rect.unit (s := S16384x32) ![0, 15] S16384x1.size inb_S16384x32_S16384x1_0_15
abbrev col16 : Rect S16384x32 := Rect.unit (s := S16384x32) ![0, 16] S16384x1.size inb_S16384x32_S16384x1_0_16
abbrev col17 : Rect S16384x32 := Rect.unit (s := S16384x32) ![0, 17] S16384x1.size inb_S16384x32_S16384x1_0_17
abbrev col18 : Rect S16384x32 := Rect.unit (s := S16384x32) ![0, 18] S16384x1.size inb_S16384x32_S16384x1_0_18
abbrev col19 : Rect S16384x32 := Rect.unit (s := S16384x32) ![0, 19] S16384x1.size inb_S16384x32_S16384x1_0_19
abbrev col20 : Rect S16384x32 := Rect.unit (s := S16384x32) ![0, 20] S16384x1.size inb_S16384x32_S16384x1_0_20
abbrev col21 : Rect S16384x32 := Rect.unit (s := S16384x32) ![0, 21] S16384x1.size inb_S16384x32_S16384x1_0_21
abbrev col22 : Rect S16384x32 := Rect.unit (s := S16384x32) ![0, 22] S16384x1.size inb_S16384x32_S16384x1_0_22
abbrev col23 : Rect S16384x32 := Rect.unit (s := S16384x32) ![0, 23] S16384x1.size inb_S16384x32_S16384x1_0_23
abbrev col24 : Rect S16384x32 := Rect.unit (s := S16384x32) ![0, 24] S16384x1.size inb_S16384x32_S16384x1_0_24
abbrev col25 : Rect S16384x32 := Rect.unit (s := S16384x32) ![0, 25] S16384x1.size inb_S16384x32_S16384x1_0_25
abbrev col26 : Rect S16384x32 := Rect.unit (s := S16384x32) ![0, 26] S16384x1.size inb_S16384x32_S16384x1_0_26
abbrev col27 : Rect S16384x32 := Rect.unit (s := S16384x32) ![0, 27] S16384x1.size inb_S16384x32_S16384x1_0_27
abbrev col28 : Rect S16384x32 := Rect.unit (s := S16384x32) ![0, 28] S16384x1.size inb_S16384x32_S16384x1_0_28
abbrev col29 : Rect S16384x32 := Rect.unit (s := S16384x32) ![0, 29] S16384x1.size inb_S16384x32_S16384x1_0_29
abbrev col30 : Rect S16384x32 := Rect.unit (s := S16384x32) ![0, 30] S16384x1.size inb_S16384x32_S16384x1_0_30
abbrev col31 : Rect S16384x32 := Rect.unit (s := S16384x32) ![0, 31] S16384x1.size inb_S16384x32_S16384x1_0_31

/-! ## What the body leaves in the output block -/

/-- The window of 16512 samples the body assembles: the first input block followed by the second. -/
def window (x0 : Vec F S16384 .f32) (x1 : Vec F S128 .f32) : FVec F S16512 .f32 :=
  k0_pay9 (View.ld x0 rMain) (View.ld x1 rTail)

/-- The stretch of 16384 samples of a window that starts at sample o, as a column. -/
abbrev stretch (w : FVec F S16512 .f32) (o : Nat) (h : S16512.Slices (![o] : Fin 1 → Nat) S16384) : FVec F S16384x1 .f32 :=
  shapeCast S16384x1 (extractStridedSlice S16384 ![o] w h) shapeCasts_S16384_S16384x1

/-- The body's 32 stores as pieces, the last store first: column k receives the window's stretch from 4k. -/
def pieces (x0 : Vec F S16384 .f32) (x1 : Vec F S128 .f32) : List (View.Piece (Elt F) S16384x32 .f32) :=
  [⟨col31, stretch (window x0 x1) 124 slices_S16512_o124_S16384⟩,
   ⟨col30, stretch (window x0 x1) 120 slices_S16512_o120_S16384⟩,
   ⟨col29, stretch (window x0 x1) 116 slices_S16512_o116_S16384⟩,
   ⟨col28, stretch (window x0 x1) 112 slices_S16512_o112_S16384⟩,
   ⟨col27, stretch (window x0 x1) 108 slices_S16512_o108_S16384⟩,
   ⟨col26, stretch (window x0 x1) 104 slices_S16512_o104_S16384⟩,
   ⟨col25, stretch (window x0 x1) 100 slices_S16512_o100_S16384⟩,
   ⟨col24, stretch (window x0 x1) 96 slices_S16512_o96_S16384⟩,
   ⟨col23, stretch (window x0 x1) 92 slices_S16512_o92_S16384⟩,
   ⟨col22, stretch (window x0 x1) 88 slices_S16512_o88_S16384⟩,
   ⟨col21, stretch (window x0 x1) 84 slices_S16512_o84_S16384⟩,
   ⟨col20, stretch (window x0 x1) 80 slices_S16512_o80_S16384⟩,
   ⟨col19, stretch (window x0 x1) 76 slices_S16512_o76_S16384⟩,
   ⟨col18, stretch (window x0 x1) 72 slices_S16512_o72_S16384⟩,
   ⟨col17, stretch (window x0 x1) 68 slices_S16512_o68_S16384⟩,
   ⟨col16, stretch (window x0 x1) 64 slices_S16512_o64_S16384⟩,
   ⟨col15, stretch (window x0 x1) 60 slices_S16512_o60_S16384⟩,
   ⟨col14, stretch (window x0 x1) 56 slices_S16512_o56_S16384⟩,
   ⟨col13, stretch (window x0 x1) 52 slices_S16512_o52_S16384⟩,
   ⟨col12, stretch (window x0 x1) 48 slices_S16512_o48_S16384⟩,
   ⟨col11, stretch (window x0 x1) 44 slices_S16512_o44_S16384⟩,
   ⟨col10, stretch (window x0 x1) 40 slices_S16512_o40_S16384⟩,
   ⟨col9, stretch (window x0 x1) 36 slices_S16512_o36_S16384⟩,
   ⟨col8, stretch (window x0 x1) 32 slices_S16512_o32_S16384⟩,
   ⟨col7, stretch (window x0 x1) 28 slices_S16512_o28_S16384⟩,
   ⟨col6, stretch (window x0 x1) 24 slices_S16512_o24_S16384⟩,
   ⟨col5, stretch (window x0 x1) 20 slices_S16512_o20_S16384⟩,
   ⟨col4, stretch (window x0 x1) 16 slices_S16512_o16_S16384⟩,
   ⟨col3, stretch (window x0 x1) 12 slices_S16512_o12_S16384⟩,
   ⟨col2, stretch (window x0 x1) 8 slices_S16512_o8_S16384⟩,
   ⟨col1, stretch (window x0 x1) 4 slices_S16512_o4_S16384⟩,
   ⟨col0, stretch (window x0 x1) 0 slices_S16512_o0_S16384⟩]

/-- The output block after the body, as a function of the two input blocks alone. -/
def outBlock (x0 : Vec F S16384 .f32) (x1 : Vec F S128 .f32) : Vec F S16384x32 .f32 :=
  View.canon (pieces x0 x1)

/-- The 32 columns tile the output block, so every entry of it lies in one of them. -/
theorem cover_cols (x0 : Vec F S16384 .f32) (x1 : Vec F S128 .f32) (y : S16384x32.Idx) :
    ∃ pc ∈ pieces x0 x1, y ∈ pc.1.set :=
  View.cover_of_tiled (pieces x0 x1) S16384x1.size (by rfl) y

/-! ## The body's triple -/

set_option maxHeartbeats 4000000 in
/-- On whole buffers, the inputs holding x0 and x1 and the output holding anything, the body runs to its
    end leaving the inputs as they were and the output block at the columns of the window of x0 and x1. -/
theorem sound_kernel (c : Dev nD) (E : Set ℕ) (i : grid0.Coords)
    (arg1 : Memref sig .tc .vmem S16384 .f32) (harg1 : arg1.IsWhole)
    (arg2 : Memref sig .tc .vmem S128 .f32) (harg2 : arg2.IsWhole)
    (arg3 : Memref sig .tc .vmem S16384x32 .f32) (harg3 : arg3.IsWhole)
    (x0 : Vec F S16384 .f32) (x1 : Vec F S128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
              ∗ owns (c : Thread nD τ) arg3 fullShare (outBlock x0 x1)) -∗ K ⟨⟩))
      ⊢ wp frame (wpE (defs₀ (F := F)) Variants.none c none) E (cc0__embed_kernel i arg1 harg1 arg2 harg2 arg3 harg3) K := by
  simp only [cc0__embed_kernel_eq_skeleton]; unfold cc0__embed_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_cols _ _)

end Cert.Kernel.Emb

end
-- ==== Proof.BitsData.lean ====
/-
  The kernel's run, from the launch to the result.

  The host first pads the series of 4194304 samples with 128 zeros. The one kernel region then visits 256
  grid points; at point t it is handed samples 16384 t, ..., 16384 t + 16383 of the padded series (its
  first window) and the 128 samples that follow them (its second window, block t + 1 at a block size of
  128 on the SAME padded series), and writes rows 16384 t, ..., 16384 t + 16383 of a table of 4194304
  rows and 32 columns. Last the host keeps the table's first 4194180 rows.
  The two input windows read one array, so the array's ownership is dealt between them in two halves at
  the region's entry and joined again at its exit.
-/
import proofs.«177202_j87351044866353_1_alg».proof.Proof.BitsBody
import Idealize.ShloMosaic.Lib.Pipeline.FrameSuffix

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: one copy of the pipeline's. -/
abbrev EP : Emb (UR sig nD τ) (MT nD τ sig Unit (Elt F) ℕ (UR sig nD τ) ℕ) := emb₁

variable (m : (ℓ : Loc nD τ sig) → Buf (Elt F) ℓ) (ρ : Dev nD → PrngReg)

/-! ## The host lines around the region -/

/-- The buffers' contents when the region is entered: after the zero constant and the padding. -/
abbrev V0 (c : Dev nD) : Valuation τ sig (Elt F) := StableHlo.after (List.flatten [hostOps0, hostOps0_1]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the two host stretches, the region, and the last host line: it reduces to the region
    continued by that line, at the contents after the two stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

/-! ## The two input blocks at a grid point -/

/-- No block of the first window runs past the padded series on the grid: 256 blocks of 16384 end at 4194304. -/
theorem clip0_none : ∀ (t : Fin cfg0.N) (a : Fin 1), (cfg0.win 0).clip (cfg0.grid.coords t) a = none := by
  exact (by decide +kernel : ∀ (t : Fin grid0.N) (a : Fin 1), win0_0.clip (grid0.coords t) a = none)

/-- The first window's block at point t, as a whole staging buffer. -/
def blk0 (c : Dev nD) (t : Fin cfg0.N) : Vec F S16384 .f32 :=
  win0_0.fill (grid0.coords t) (fun _ => Scalar.ofBits .f32 0#32) ((win0_0.blk t).view.read (Elt F) (V m c main_v0))

/-- The second window's block at point t. -/
def blk1 (c : Dev nD) (t : Fin cfg0.N) : Vec F S128 .f32 :=
  (win0_1.blk t).view.read (Elt F) (V m c main_v0)

/-! ## The proof data -/

/-- The arrays as the region finds them; after the body at point t the two input buffers at their blocks and
    the output buffer at the columns of their window; nothing else kept; the padded series held in two halves. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => blk1 m c t
    | ⟨2, _⟩ => outBlock (blk0 m c t) (blk1 m c t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = blk0 m c t := by dsimp only [dats]
theorem after1 (c : Dev nD) (t : Fin cfg0.N) : (dats m 0 c).after 1 t = blk1 m c t := by dsimp only [dats]
theorem after2 (c : Dev nD) (t : Fin cfg0.N) : (dats m 0 c).after 2 t = outBlock (blk0 m c t) (blk1 m c t) := by dsimp only [dats]

/-- What the body finds in the first input buffer at point t: the block just fetched. -/
theorem before0 (c : Dev nD) (t : Fin cfg0.N) (d) : (dats m 0 c).before 0 t d = blk0 m c t := by
  unfold Dat.before
  rw [if_pos (fetch0_0 t)]
  -- the fetch is not cut, so nothing of what the buffer held before survives it
  rw [(dats m 0 c).fetched_of_clip_none 0 t (clip0_none t) d (fun _ => Scalar.ofBits .f32 0#32)]
  unfold Dat.fetched Dat.blockOf blk0
  rw [A_eq]
/-- And in the second. -/
theorem before1 (c : Dev nD) (t : Fin cfg0.N) (d) : (dats m 0 c).before 1 t d = blk1 m c t := by
  unfold Dat.before
  rw [if_pos (fetch0_1 t)]
  unfold Dat.fetched Dat.blockOf blk1
  rw [A_eq]
  rfl

/-! ## The body obligation -/

theorem body_obligation (c : Dev nD) : BodyObligation (dats (F := F) m 0 c) (defs₀ (F := F)) Variants.none () Set.univ := by
  intro t
  rw [bigSep_W0, bigSep_W0]
  -- nothing is kept beside the buffers and nothing is owed, at either end of the point
  rw [show (dats m 0 c).Φ t.succ = (dats m 0 c).Φ t.castSucc from rfl,
    show (dats m 0 c).owesAt () t.succ = (dats m 0 c).owesAt () t.castSucc from rfl]
  simp only [before0, before1, after0, after1, after2]
  iintro ⟨HΦ, Ho, ⟨%d0, H0⟩, ⟨%d1, H1⟩, ⟨%d2, H2⟩⟩
  iapply (sound_kernel c Set.univ _ _ _ _ _ _ _ (blk0 m c t) (blk1 m c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Emb

end
-- ==== Proof.BitsShares.lean ====
/-
  The padded series in two halves.

  The kernel's first two windows read ONE array, the padded series. At the region's entry the series' full
  ownership is dealt to them in two halves, the left half to the first window and the right half to the
  second; at its exit the halves are joined again. The table, the third window's array, is held whole.
-/
import proofs.«177202_j87351044866353_1_alg».proof.Proof.BitsData
import Idealize.ShloMosaic.Lib.ValueIdx

set_option maxRecDepth 16384

noncomputable section

namespace Cert.Kernel.Emb

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

variable (m : (ℓ : Loc nD τ sig) → Buf (Elt F) ℓ)

/-- The first window holds the padded series at the left half of its ownership. -/
theorem share0 (c : Dev nD) : (dats (F := F) m 0 c).share 0 = fullShare.left := by
  unfold Dat.share; rfl
/-- The second window holds it at the right half. -/
theorem share1 (c : Dev nD) : (dats (F := F) m 0 c).share 1 = fullShare.right := by
  unfold Dat.share; rfl
/-- The third window, the output, holds the table whole. -/
theorem share2 (c : Dev nD) : (dats (F := F) m 0 c).share 2 = fullShare := by
  unfold Dat.share; rfl

/-- The two arrays behind the three windows, each whole, are the windows' arrays at the proof data's shares:
    the padded series in its left half for the first window and in its right half for the second (both at the
    SAME contents), the table whole. -/
theorem arrays_iff (c : Dev nD) (A0 : Buf (Elt F) ((c : Thread nD τ).loc main_v0)) (A2 : Buf (Elt F) ((c : Thread nD τ).loc main_v1)) :
    (iprop((((c : Thread nD τ).loc main_v0) ↦{fullShare} A0) ∗ (((c : Thread nD τ).loc main_v1) ↦{fullShare} A2)) : sProp 𝕄)
      ⊣⊢ (dats m 0 c).arrays (fun w => match w with | ⟨0, _⟩ => A0 | ⟨1, _⟩ => A0 | ⟨2, _⟩ => A2) := by
  -- each window's array is a whole buffer, so its view is every element of it (the first two windows' views are one and the same)
  have h0 : (cfg0.win 0).arr.view.set = Finset.univ := (Memref.isWhole_whole main_v0).set_eq_univ
  have h2 : (cfg0.win 2).arr.view.set = Finset.univ := (Memref.isWhole_whole main_v1).set_eq_univ
  unfold Dat.arrays
  rw [bigSep_W0, h0, h2, share0, share1, share2]
  show (iprop((((c : Thread nD τ).loc main_v0) ↦{fullShare} A0) ∗ (((c : Thread nD τ).loc main_v1) ↦{fullShare} A2)) : sProp 𝕄)
    ⊣⊢ iprop((((c : Thread nD τ).loc main_v0) ↦{fullShare.left} A0) ∗ (((c : Thread nD τ).loc main_v0) ↦{fullShare.right} A0)
        ∗ (((c : Thread nD τ).loc main_v1) ↦{fullShare} A2))
  constructor
  · -- the whole series is dealt into its two halves
    iintro ⟨H0, H2⟩
    ihave H0 := (pointsTo_share (PosShare.mem_left_op_right fullShare)).1 $$ H0
    icases H0 with ⟨Hl, Hr⟩
    isplitl [Hl]; · iexact Hl
    isplitl [Hr]; · iexact Hr
    iexact H2
  · -- and the two halves, at the same contents, are joined again
    iintro ⟨Hl, Hr, H2⟩
    isplitr [H2]
    · iapply (pointsTo_share (PosShare.mem_left_op_right fullShare)).2
      isplitl [Hl]; · iexact Hl
      iexact Hr
    · iexact H2

/-- The distinct buffers behind the windows' arrays are the padded series and the table. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1)) := by
  -- the three windows name two buffers: the first two the padded series, the third the table
  unfold Pipeline.arrBufs
  rw [bigSep_eq_bigSepL_of_eq [main_v0, main_v1] (by decide) (by decide)]
  rfl

end Cert.Kernel.Emb

end
-- ==== Proof.BitsRun.lean ====
/-
  The kernel's run as a whole.

  From any memory, every fair run of the program ends; at the end the result buffer holds the first
  4194180 rows of the table the region wrote, and the series the program was launched on is unchanged.
  The region is entered with the padded series dealt in two halves to its two input windows; it is left
  with the halves joined again, and the last host line then reads the table and writes the result.
-/
import proofs.«177202_j87351044866353_1_alg».proof.Proof.BitsData
import proofs.«177202_j87351044866353_1_alg».proof.Proof.BitsShares

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host line before the region writes the series: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes,
      StableHlo.TRef.unary, StableHlo.TRef.binary, Finset.mem_singleton]
    repeat' apply And.intro
    all_goals exact StableHlo.devRef_ne_of_ne (by decide)))

/-- The table after the region's last write-back. -/
abbrev tableAt (c : Dev nD) : Buf (Elt F) ((c : Thread nD τ).loc main_v1) := (dats m 0 c).arrAt 2 cfg0.N

/-- The result the last host line computes: the table's first 4194180 rows. -/
abbrev keptRows (c : Dev nD) : Buf (Elt F) ((c : Thread nD τ).loc main_v2) :=
  extractStridedSlice S4194180x32 ![0, 0] (tableAt m c) slices_S4194304x32_S4194180x32_0_0

/-- The buffers that bypass the region, as the program leaves them: as the region found them, but for the
    result buffer, which holds the kept rows. -/
def Wend (c : Dev nD) : (b : Ref sig .tc) → Buf (Elt F) ((c : Thread nD τ).loc b) :=
  Function.update (V m c) main_v2 (keptRows m c)

/-- What is claimed of the final state: the result buffer at the kept rows, the series as launched. -/
def Post : PUnit × MemSt nD τ sig (Elt F) → Prop := fun r => ∀ c : Dev nD,
  r.2.mem ((c : Thread nD τ).loc main_v2) = keptRows m c
    ∧ r.2.mem ((c : Thread nD τ).loc main_arg0) = m ((c : Thread nD τ).loc main_arg0)

/-- The pipeline's launch element: every staging cell's owner at round 0 and a token for every transfer. -/
def u₀ : UR sig nD τ := initOf (Pipeline.cells cfgs cellOf_inj) (Pipeline.launchToks cfgs cellOf_inj)

/-- The last host line, run from the region's exit: it reads the table and writes the result buffer; the
    padded series' two halves and the other bypassing buffers pass through. -/
theorem htail (c : Dev nD) (Q' : PUnit → sProp 𝕄) :
    iprop((iprop((dats m 0 c).arrays ((dats m 0 c).arrAt · cfg0.N) ∗ Pipeline.unscopedRest spec0 c (Wend m c)) -∗ Q' ⟨⟩)
        ∗ boundary (c : Thread nD τ) ∗ (dats m 0 c).arrays ((dats m 0 c).arrAt · cfg0.N) ∗ Pipeline.unscopedRest spec0 c (V m c))
      ⊢ wp frame (wpE (defs (F := F)) (Variants.lift Variants.none) (c : Thread nD τ) none) Set.univ (Pipeline.chain [StableHlo.seq hostOps1]) Q' := by
  classical
  -- at the region's exit the two input windows' array is as found, and the third's is the table
  have eN : (fun w => (dats m 0 c).arrAt w cfg0.N)
      = (fun w => match w with | ⟨0, _⟩ => V m c main_v0 | ⟨1, _⟩ => V m c main_v0 | ⟨2, _⟩ => tableAt m c) :=
    funext fun w => match w with
      | ⟨0, _⟩ => ((dats m 0 c).arrAt_in (0 : Fin 3) rfl _).trans (A_eq m c 0)
      | ⟨1, _⟩ => ((dats m 0 c).arrAt_in (1 : Fin 3) rfl _).trans (A_eq m c 1)
      | ⟨2, _⟩ => rfl
  -- the bypassing buffers at the end: only the result buffer differs
  have w0 : Wend m c main_arg0 = V m c main_arg0 := Function.update_of_ne (by decide) ..
  have w1 : Wend m c main_c = V m c main_c := Function.update_of_ne (by decide) ..
  have w2 : Wend m c main_call0_v0 = V m c main_call0_v0 := Function.update_of_ne (by decide) ..
  have w3 : Wend m c main_v2 = keptRows m c := Function.update_self ..
  rw [eN, unscopedRest0_eq, unscopedRest0_eq, w0, w1, w2, w3]
  -- the last line's two buffers, the table and the result buffer, held at a valuation that has the table at the table's buffer
  let S : Finset (DevRef τ sig) := {Proc.devRef .tc main_v1, Proc.devRef .tc main_v2}
  let W : Valuation τ sig (Elt F) := Function.update (V0 m c) (Proc.devRef .tc main_v1) (tableAt m c)
  have hne : (Proc.devRef (τ := τ) .tc main_v1 : DevRef τ sig) ≠ Proc.devRef .tc main_v2 := StableHlo.devRef_ne_of_ne (by decide)
  have hWv1 : W (Proc.devRef .tc main_v1) = tableAt m c := Function.update_self ..
  have hWv2 : W (Proc.devRef .tc main_v2) = V m c main_v2 := Function.update_of_ne hne.symm ..
  have hS : (StableHlo.held (c : Thread nD τ) S W : sProp 𝕄)
      = iprop((((c : Thread nD τ).loc main_v1) ↦{fullShare} tableAt m c) ∗ (((c : Thread nD τ).loc main_v2) ↦{fullShare} V m c main_v2)) := by
    unfold StableHlo.held
    rw [bigSep_insert (by rw [Finset.mem_singleton]; exact hne), bigSep_singleton, hWv1, hWv2]
    rfl
  -- the line reads the table and writes the result buffer
  have hA1 : StableHlo.after hostOps1 W (Proc.devRef .tc main_v1) = tableAt m c := by
    simp only [hostOps1]; after_results; exact hWv1
  have hA2 : StableHlo.after hostOps1 W (Proc.devRef .tc main_v2) = keptRows m c := by
    simp only [hostOps1]; after_results; rw [hWv1]
  have hS' : (StableHlo.held (c : Thread nD τ) S (StableHlo.after ([hostOps1] : List (List (HloOp τ sig (Elt F)))).flatten W) : sProp 𝕄)
      = iprop((((c : Thread nD τ).loc main_v1) ↦{fullShare} tableAt m c) ∗ (((c : Thread nD τ).loc main_v2) ↦{fullShare} keptRows m c)) := by
    unfold StableHlo.held
    rw [List.flatten_cons, List.flatten_nil, List.append_nil,
      bigSep_insert (by rw [Finset.mem_singleton]; exact hne), bigSep_singleton, hA1, hA2]
    rfl
  have hsub : ∀ ops ∈ ([hostOps1] : List (List (HloOp τ sig (Elt F)))), ∀ op ∈ ops, op.bufs ⊆ S := by
    intro ops hops op hop
    simp only [List.mem_cons, List.mem_nil_iff, or_false] at hops
    subst hops
    simp only [hostOps1, List.mem_cons, List.mem_nil_iff, or_false] at hop
    subst hop
    exact Finset.Subset.refl _
  have hfr : ∀ ops ∈ ([hostOps1] : List (List (HloOp τ sig (Elt F)))), ∀ op ∈ ops, op.fresh = ∅ := by
    intro ops hops op hop
    simp only [List.mem_cons, List.mem_nil_iff, or_false] at hops
    subst hops
    exact (List.forall_iff_forall_mem.mp hostOps1_fresh) op hop
  show _ ⊢ wp frame _ Set.univ (Pipeline.chain (([hostOps1] : List (List (HloOp τ sig (Elt F)))).map StableHlo.seq ++ [])) Q'
  iintro ⟨Hk, Hb, Harr, Ha0, Hc0, Hcv, Hv2⟩
  ihave H01 := (arrays_iff m c _ _).2 $$ Harr
  icases H01 with ⟨Hv0, Hv1⟩
  iapply (Pipeline.wp_seqs_then (fun q => (cfgs q).toPCfg (Val := Elt F)) defs₀ Variants.none c S [] [hostOps1] hsub hfr W) $$ [Hb Hv1 Hv2]
  · rw [hS]
    isplitl [Hb]; · iexact Hb
    isplitl [Hv1]; · iexact Hv1
    iexact Hv2
  iintro ⟨Hb, Hh⟩
  ihave Hh' := (Entails.of_eq hS') $$ Hh
  icases Hh' with ⟨Hv1, Hv2⟩
  simp only [Pipeline.chain_nil, wp_pure]
  imodintro
  iapply Hk
  isplitl [Hv0 Hv1]
  · iapply (arrays_iff m c _ _).1
    isplitl [Hv0]; · iexact Hv0
    iexact Hv1
  isplitl [Ha0]; · iexact Ha0
  isplitl [Hc0]; · iexact Hc0
  isplitl [Hcv]; · iexact Hcv
  iexact Hv2

-- the launch theorem's implicit arguments are found by unifying its conclusion with this one, which takes
-- unfolding plain definitions in a metavariable's type
set_option backward.isDefEq.respectTransparency.types false in
/-- Every fair run of the program ends, in a state of which Post holds. -/
theorem run_main : θ_run defs (onTc (τ := τ) (main (F := F))) (s₀ m ρ) (Post m) :=
  Pipeline.θ_run_region_noSem_pf_tail (fun p => (cfgs p).toPCfg) (fun p => (cfgs p).toPCfg_adm) (dats m) () cellOf_inj (0 : Fin 1)
    winFacts₀0 (Pipeline.PreFacts.none _) EP defs₀ Variants.none m ρ main (fun _ => Pipeline.chain [StableHlo.seq hostOps1])
    (hbody := fun c => (body_obligation m c).loose)
    (hne := block_pos0) (harr := arr_whole0) (hstage := stage_whole0) (howed := fun _ _ => rfl)
    (u₀ := u₀) (hu₀ := BI.Entails.refl _)
    (V := V m) (hmain := hmain m Variants.none)
    (hsplit := fun c => by
      rw [arrBufs_eq]
      exact (arrays_iff m c _ _).1.trans (Entails.of_eq (congrArg (dats m 0 c).arrays (funext fun w =>
        match w with
        | ⟨0, _⟩ => rfl
        | ⟨1, _⟩ => rfl
        | ⟨2, _⟩ => rfl))))
    (hpf := fun _ k => k.elim0)
    (X := fun _ => iprop(emp)) (Y := fun _ => iprop(emp))
    (Z := fun c => Pipeline.unscopedRest spec0 c (V m c)) (Z' := fun c => Pipeline.unscopedRest spec0 c (Wend m c))
    (hX := fun c => by rw [Pipeline.unscopedRestP_none]; iintro H; isplitr; · iempintro
                       iexact H)
    (hin := fun _ => by rw [scopedRest0_eq]; iintro -; iempintro)
    (hout := fun _ => by rw [scopedRest0_eq]; iintro -; isplitr <;> iempintro)
    (htail := htail m)
    (QY := fun c s => ∀ b ∈ Pipeline.restRefs sig spec0, s.mem ((c : Thread nD τ).loc b) = Wend m c b)
    (hY := fun c s' => by
      iintro ⟨-, HU, HSI⟩
      unfold Pipeline.unscopedRest
      imodintro
      iapply (pointsTo_read_all (Pipeline.restRefs sig spec0) (fun b => (c : Thread nD τ).loc b) (Wend m c) s')
      isplitl [HU] <;> iassumption)
    (hQ := fun s h c => by
      have hr := (h c).2.2
      refine ⟨(hr main_v2 (by decide)).trans ?_, (hr main_arg0 (by decide)).trans ?_⟩
      · exact Function.update_self ..
      · exact (Function.update_of_ne (by decide) ..).trans (V_main_arg0 m c))

end Cert.Kernel.Emb

end
-- ==== Proof.lean ====
/-
  The kernel and the reference compute the delay embedding of one series.

  A series x of 4194304 samples is laid out as a table of 4194180 rows and 32 columns with x[j + 4k] in row j
  and column k (Proof/Spec.lean). The reference builds the index table j + 4k and gathers x at it
  (Proof/RefSide.lean). The kernel pads x with 128 zeros and visits 256 grid points; at point t it joins samples
  16384 t, ..., 16384 t + 16383 of the padded series with the 128 that follow into one window and stores the
  window's stretch from 4k as column k of rows 16384 t, ..., 16384 t + 16383 (Proof/IdealBody.lean,
  Proof/IdealBlock.lean); the host keeps the first 4194180 rows, on which no padding is read
  (Proof/IdealValue.lean). The kernel's two input windows read ONE array, whose ownership is dealt between them
  in two halves while the region runs (Proof/IdealShares.lean, Proof/IdealRun.lean). Every entry of either
  result is a copy of one sample: no law of arithmetic is used, and the inputs' finiteness is not either.
  The word-level program is the same text as the idealized one, and its frame is the same argument
  (Proof/Bits*.lean).
-/
import proofs.«177202_j87351044866353_1_alg».proof.Defs
import proofs.«177202_j87351044866353_1_alg».proof.Proof.Gen.Kernel
import proofs.«177202_j87351044866353_1_alg».proof.Proof.Gen.KernelIdeal
import proofs.«177202_j87351044866353_1_alg».proof.Proof.Gen.ReferenceIdeal
import proofs.«177202_j87351044866353_1_alg».proof.Proof.Gen.Pre_finite_inputs
import proofs.«177202_j87351044866353_1_alg».proof.Proof.Gen.ReferenceIdeal.Run
import proofs.«177202_j87351044866353_1_alg».proof.Proof.Gen.ReferenceIdeal.Read
import proofs.«177202_j87351044866353_1_alg».proof.Proof.RefSide
import proofs.«177202_j87351044866353_1_alg».proof.Proof.IdealRun
import proofs.«177202_j87351044866353_1_alg».proof.Proof.IdealValue
import proofs.«177202_j87351044866353_1_alg».proof.Proof.BitsRun
import Idealize.ShloMosaic.Adequacy
import Idealize.ShloMosaic.Init

noncomputable section

namespace Cert.Proof

open Idealize.ShloMosaic Idealize.ShloMosaic.TcCoe Idealize.SL.Sem

/-- The word-level kernel runs to its end and leaves the series as launched. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Emb.run_main (F := Bits) m ρ)

/-- So does the idealized kernel. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Emb.run_main (F := Ideal) m ρ)

/-- And the reference, a straight line of host operations. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the series both programs end with the series' delay embedding as their result:
    the kernel's kept rows of its table, and the reference's gather. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Emb.keptRows m c, Cert.KernelIdeal.Emb.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.RefSide.ref_is_embed, hagree c]
  exact (Cert.KernelIdeal.Emb.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
